-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S200000x6 : Shape := ⟨2, ![200000, 6]⟩
abbrev S1600000x42 : Shape := ⟨2, ![1600000, 42]⟩
abbrev S128x128 : Shape := ⟨2, ![128, 128]⟩
abbrev S128 : Shape := ⟨1, ![128]⟩
abbrev S6x8 : Shape := ⟨2, ![6, 8]⟩
abbrev S8x128 : Shape := ⟨2, ![8, 128]⟩
abbrev S128x64 : Shape := ⟨2, ![128, 64]⟩
abbrev S42x8 : Shape := ⟨2, ![42, 8]⟩
abbrev S8x64 : Shape := ⟨2, ![8, 64]⟩
abbrev S64x128 : Shape := ⟨2, ![64, 128]⟩
abbrev S1600000 : Shape := ⟨1, ![1600000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S200000x6 : S_.BroadcastsInDim S200000x6 (![] : Fin 0 → Fin S200000x6.rank)
  reducesTo_S200000x6_S_d0_1 : S200000x6.ReducesTo [0, 1] S_
  bcast_S_S1600000x42 : S_.BroadcastsInDim S1600000x42 (![] : Fin 0 → Fin S1600000x42.rank)
  reducesTo_S1600000x42_S_d0_1 : S1600000x42.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S6x8 : S_.BroadcastsInDim S6x8 (![] : Fin 0 → Fin S6x8.rank)
  reducesTo_S6x8_S_d0_1 : S6x8.ReducesTo [0, 1] S_
  bcast_S_S8x128 : S_.BroadcastsInDim S8x128 (![] : Fin 0 → Fin S8x128.rank)
  reducesTo_S8x128_S_d0_1 : S8x128.ReducesTo [0, 1] S_
  bcast_S_S128x64 : S_.BroadcastsInDim S128x64 (![] : Fin 0 → Fin S128x64.rank)
  reducesTo_S128x64_S_d0_1 : S128x64.ReducesTo [0, 1] S_
  bcast_S_S42x8 : S_.BroadcastsInDim S42x8 (![] : Fin 0 → Fin S42x8.rank)
  reducesTo_S42x8_S_d0_1 : S42x8.ReducesTo [0, 1] S_
  bcast_S_S8x64 : S_.BroadcastsInDim S8x64 (![] : Fin 0 → Fin S8x64.rank)
  reducesTo_S8x64_S_d0_1 : S8x64.ReducesTo [0, 1] S_
  bcast_S_S64x128 : S_.BroadcastsInDim S64x128 (![] : Fin 0 → Fin S64x128.rank)
  reducesTo_S64x128_S_d0_1 : S64x128.ReducesTo [0, 1] S_
  bcast_S_S1600000 : S_.BroadcastsInDim S1600000 (![] : Fin 0 → Fin S1600000.rank)
  reducesTo_S1600000_S_d0 : S1600000.ReducesTo [0] S_

variable [Facts]

def fn_part8 {F : FTy → Type} [FloatOps F] (main_arg28 : IVec S1600000 32) (main_v133 : IVec S_ 1) (main_v135 : IVec S1600000 1) (main_c_53 : IVec S_ 1) : IVec S_ 1 :=
  let main_v136 : IVec S_ 1 := (fun x v => Host.reduce IntOp.andi x v reducesTo_S1600000_S_d0 h_S_) main_v135 main_c_53
  let main_v137 : IVec S_ 1 := andi main_v133 main_v136
  let main_c_54 : IVec S_ 32 := constantI S_ 32 200000#32
  let main_v138 : IVec S1600000 32 := broadcastInDim S1600000 ![] bcast_S_S1600000 main_c_54
  let main_v139 : IVec S1600000 1 := cmpi .slt main_arg28 main_v138
  let main_c_55 : IVec S_ 1 := constantI S_ 1 1#1
  let main_v140 : IVec S_ 1 := (fun x v => Host.reduce IntOp.andi x v reducesTo_S1600000_S_d0 h_S_) main_v139 main_c_55
  let main_v141 : IVec S_ 1 := andi main_v137 main_v140
  main_v141

def fn_part7 {F : FTy → Type} [FloatOps F] (main_arg25 : FVec F S128x128 .f32) (main_arg26 : FVec F S128 .f32) (main_arg28 : IVec S1600000 32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x128 .f32 := Host.absf main_arg25
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_v129 : FVec F S128 .f32 := Host.absf main_arg26
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_c_52 : IVec S_ 32 := constantI S_ 32 4294767296#32
  let main_v134 : IVec S1600000 32 := broadcastInDim S1600000 ![] bcast_S_S1600000 main_c_52
  let main_v135 : IVec S1600000 1 := cmpi .sge main_arg28 main_v134
  let main_c_53 : IVec S_ 1 := constantI S_ 1 1#1
  fn_part8 (F := F) main_arg28 main_v133 main_v135 main_c_53

def fn_part6 {F : FTy → Type} [FloatOps F] (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg28 : IVec S1600000 32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg21
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg23
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg24
  fn_part7 (F := F) main_arg25 main_arg26 main_arg28 main_v118 main_v119

def fn_part5 {F : FTy → Type} [FloatOps F] (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg28 : IVec S1600000 32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg19
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_arg23 main_arg24 main_arg25 main_arg26 main_arg28 main_v98 main_v101 main_c_39

def fn_part4 {F : FTy → Type} [FloatOps F] (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg28 : IVec S1600000 32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg28 main_v83 main_v84 main_cst_32

def fn_part3 {F : FTy → Type} [FloatOps F] (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg28 : IVec S1600000 32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_arg19 main_arg20 main_arg21 main_arg22 main_arg23 main_arg24 main_arg25 main_arg26 main_arg28 main_v63 main_v67

def fn_part2 {F : FTy → Type} [FloatOps F] (main_arg7 : FVec F S128x64 .f32) (main_arg8 : FVec F S42x8 .f32) (main_arg9 : FVec F S8x64 .f32) (main_arg10 : FVec F S64x128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg28 : IVec S1600000 32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S42x8 .f32 := Host.absf main_arg8
  let main_cst_14 : FVec F S_ .f32 := constant S_ .f32 0x7F800000#32
  let main_v40 : FVec F S42x8 .f32 := broadcastInDim S42x8 ![] bcast_S_S42x8 main_cst_14
  let main_v41 : IVec S42x8 1 := cmpf .olt main_v39 main_v40
  let main_c_15 : IVec S_ 1 := constantI S_ 1 1#1
  let main_v42 : IVec S_ 1 := (fun x v => Host.reduce IntOp.andi x v reducesTo_S42x8_S_d0_1 h_S_) main_v41 main_c_15
  let main_v43 : IVec S_ 1 := andi main_v38 main_v42
  let main_v44 : FVec F S8x64 .f32 := Host.absf main_arg9
  let main_cst_16 : FVec F S_ .f32 := constant S_ .f32 0x7F800000#32
  let main_v45 : FVec F S8x64 .f32 := broadcastInDim S8x64 ![] bcast_S_S8x64 main_cst_16
  let main_v46 : IVec S8x64 1 := cmpf .olt main_v44 main_v45
  let main_c_17 : IVec S_ 1 := constantI S_ 1 1#1
  let main_v47 : IVec S_ 1 := (fun x v => Host.reduce IntOp.andi x v reducesTo_S8x64_S_d0_1 h_S_) main_v46 main_c_17
  let main_v48 : IVec S_ 1 := andi main_v43 main_v47
  let main_v49 : FVec F S64x128 .f32 := Host.absf main_arg10
  let main_cst_18 : FVec F S_ .f32 := constant S_ .f32 0x7F800000#32
  let main_v50 : FVec F S64x128 .f32 := broadcastInDim S64x128 ![] bcast_S_S64x128 main_cst_18
  fn_part3 (F := F) main_arg11 main_arg12 main_arg13 main_arg14 main_arg15 main_arg16 main_arg17 main_arg18 main_arg19 main_arg20 main_arg21 main_arg22 main_arg23 main_arg24 main_arg25 main_arg26 main_arg28 main_v48 main_v49 main_v50

def fn_part1 {F : FTy → Type} [FloatOps F] (main_arg4 : FVec F S128 .f32) (main_arg5 : FVec F S6x8 .f32) (main_arg6 : FVec F S8x128 .f32) (main_arg7 : FVec F S128x64 .f32) (main_arg8 : FVec F S42x8 .f32) (main_arg9 : FVec F S8x64 .f32) (main_arg10 : FVec F S64x128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg28 : IVec S1600000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S6x8 .f32 := Host.absf main_arg5
  let main_cst_8 : FVec F S_ .f32 := constant S_ .f32 0x7F800000#32
  let main_v25 : FVec F S6x8 .f32 := broadcastInDim S6x8 ![] bcast_S_S6x8 main_cst_8
  let main_v26 : IVec S6x8 1 := cmpf .olt main_v24 main_v25
  let main_c_9 : IVec S_ 1 := constantI S_ 1 1#1
  let main_v27 : IVec S_ 1 := (fun x v => Host.reduce IntOp.andi x v reducesTo_S6x8_S_d0_1 h_S_) main_v26 main_c_9
  let main_v28 : IVec S_ 1 := andi main_v23 main_v27
  let main_v29 : FVec F S8x128 .f32 := Host.absf main_arg6
  let main_cst_10 : FVec F S_ .f32 := constant S_ .f32 0x7F800000#32
  let main_v30 : FVec F S8x128 .f32 := broadcastInDim S8x128 ![] bcast_S_S8x128 main_cst_10
  let main_v31 : IVec S8x128 1 := cmpf .olt main_v29 main_v30
  let main_c_11 : IVec S_ 1 := constantI S_ 1 1#1
  let main_v32 : IVec S_ 1 := (fun x v => Host.reduce IntOp.andi x v reducesTo_S8x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg28 main_v33

def fn {F : FTy → Type} [FloatOps F] (main_arg0 : FVec F S200000x128 .f32) (main_arg1 : FVec F S200000x6 .f32) (main_arg2 : FVec F S1600000x42 .f32) (main_arg3 : FVec F S128x128 .f32) (main_arg4 : FVec F S128 .f32) (main_arg5 : FVec F S6x8 .f32) (main_arg6 : FVec F S8x128 .f32) (main_arg7 : FVec F S128x64 .f32) (main_arg8 : FVec F S42x8 .f32) (main_arg9 : FVec F S8x64 .f32) (main_arg10 : FVec F S64x128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : IVec S1600000 32) (main_arg28 : IVec S1600000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x6 .f32 := Host.absf main_arg1
  let main_cst_0 : FVec F S_ .f32 := constant S_ .f32 0x7F800000#32
  let main_v5 : FVec F S200000x6 .f32 := broadcastInDim S200000x6 ![] bcast_S_S200000x6 main_cst_0
  let main_v6 : IVec S200000x6 1 := cmpf .olt main_v4 main_v5
  let main_c_1 : IVec S_ 1 := constantI S_ 1 1#1
  let main_v7 : IVec S_ 1 := (fun x v => Host.reduce IntOp.andi x v reducesTo_S200000x6_S_d0_1 h_S_) main_v6 main_c_1
  let main_v8 : IVec S_ 1 := andi main_v3 main_v7
  let main_v9 : FVec F S1600000x42 .f32 := Host.absf main_arg2
  let main_cst_2 : FVec F S_ .f32 := constant S_ .f32 0x7F800000#32
  let main_v10 : FVec F S1600000x42 .f32 := broadcastInDim S1600000x42 ![] bcast_S_S1600000x42 main_cst_2
  let main_v11 : IVec S1600000x42 1 := cmpf .olt main_v9 main_v10
  let main_c_3 : IVec S_ 1 := constantI S_ 1 1#1
  let main_v12 : IVec S_ 1 := (fun x v => Host.reduce IntOp.andi x v reducesTo_S1600000x42_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg28 main_v13 main_v16
-- ==== Kernel.lean ====
abbrev S200000x128 : Shape := ⟨2, ![200000, 128]⟩
abbrev S200000x6 : Shape := ⟨2, ![200000, 6]⟩
abbrev S1600000x42 : Shape := ⟨2, ![1600000, 42]⟩
abbrev S128x128 : Shape := ⟨2, ![128, 128]⟩
abbrev S128 : Shape := ⟨1, ![128]⟩
abbrev S6x8 : Shape := ⟨2, ![6, 8]⟩
abbrev S8x128 : Shape := ⟨2, ![8, 128]⟩
abbrev S128x64 : Shape := ⟨2, ![128, 64]⟩
abbrev S42x8 : Shape := ⟨2, ![42, 8]⟩
abbrev S8x64 : Shape := ⟨2, ![8, 64]⟩
abbrev S64x128 : Shape := ⟨2, ![64, 128]⟩
abbrev S1600000 : Shape := ⟨1, ![1600000]⟩
abbrev S6x128 : Shape := ⟨2, ![6, 128]⟩
abbrev S42x64 : Shape := ⟨2, ![42, 64]⟩
abbrev S1x128 : Shape := ⟨2, ![1, 128]⟩
abbrev S200000x64 : Shape := ⟨2, ![200000, 64]⟩
abbrev S5000x128 : Shape := ⟨2, ![5000, 128]⟩
abbrev S5000x6 : Shape := ⟨2, ![5000, 6]⟩
abbrev S5000x64 : Shape := ⟨2, ![5000, 64]⟩
abbrev S1600000x64 : Shape := ⟨2, ![1600000, 64]⟩
abbrev S6400x42 : Shape := ⟨2, ![6400, 42]⟩
abbrev S6400x64 : Shape := ⟨2, ![6400, 64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S4000x128 : Shape := ⟨2, ![4000, 128]⟩
abbrev S4000x64 : Shape := ⟨2, ![4000, 64]⟩

abbrev nBuf : Space → Nat
  | .hbm => 72
  | .vmem => 38
  | .smem => 0
  | _ => 0

abbrev bufTy : (tb : Table) → Fin (tcTables nBuf tb) → BufTy
  | .hbm, ⟨0, _⟩ => ⟨S200000x128, .f32⟩
  | .hbm, ⟨1, _⟩ => ⟨S200000x6, .f32⟩
  | .hbm, ⟨2, _⟩ => ⟨S1600000x42, .f32⟩
  | .hbm, ⟨3, _⟩ => ⟨S128x128, .f32⟩
  | .hbm, ⟨4, _⟩ => ⟨S128, .f32⟩
  | .hbm, ⟨5, _⟩ => ⟨S6x8, .f32⟩
  | .hbm, ⟨6, _⟩ => ⟨S8x128, .f32⟩
  | .hbm, ⟨7, _⟩ => ⟨S128x64, .f32⟩
  | .hbm, ⟨8, _⟩ => ⟨S42x8, .f32⟩
  | .hbm, ⟨9, _⟩ => ⟨S8x64, .f32⟩
  | .hbm, ⟨10, _⟩ => ⟨S64x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S128x128, .f32⟩
  | .hbm, ⟨24, _⟩ => ⟨S128, .f32⟩
  | .hbm, ⟨25, _⟩ => ⟨S128x128, .f32⟩
  | .hbm, ⟨26, _⟩ => ⟨S128, .f32⟩
  | .hbm, ⟨27, _⟩ => ⟨S1600000, .i32⟩
  | .hbm, ⟨28, _⟩ => ⟨S1600000, .i32⟩
  | .hbm, ⟨29, _⟩ => ⟨S6x128, .f32⟩
  | .hbm, ⟨30, _⟩ => ⟨S42x64, .f32⟩
  | .hbm, ⟨31, _⟩ => ⟨S1x128, .f32⟩
  | .hbm, ⟨32, _⟩ => ⟨S200000x64, .f32⟩
  | .hbm, ⟨33, _⟩ => ⟨S1600000x64, .bf16⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1, .i32⟩
  | .hbm, ⟨43, _⟩ => ⟨S_, .i32⟩
  | .hbm, ⟨44, _⟩ => ⟨S1600000x1, .i32⟩
  | .hbm, ⟨45, _⟩ => ⟨S1600000x1, .i1⟩
  | .hbm, ⟨46, _⟩ => ⟨S1x1, .i32⟩
  | .hbm, ⟨47, _⟩ => ⟨S1600000x1, .i32⟩
  | .hbm, ⟨48, _⟩ => ⟨S1600000x1, .i1⟩
  | .hbm, ⟨49, _⟩ => ⟨S1600000x1, .i1⟩
  | .hbm, ⟨50, _⟩ => ⟨S_, .i1⟩
  | .hbm, ⟨51, _⟩ => ⟨S1600000, .i1⟩
  | .hbm, ⟨52, _⟩ => ⟨S1600000x64, .f32⟩
  | .hbm, ⟨53, _⟩ => ⟨S1600000x64, .i1⟩
  | .hbm, ⟨54, _⟩ => ⟨S_, .f32⟩
  | .hbm, ⟨55, _⟩ => ⟨S1600000x64, .f32⟩
  | .hbm, ⟨56, _⟩ => ⟨S1600000x64, .f32⟩
  | .hbm, ⟨57, _⟩ => ⟨S1600000x64, .f32⟩
  | .hbm, ⟨58, _⟩ => ⟨S1600000x64, .f32⟩
  | .hbm, ⟨59, _⟩ => ⟨S_, .f32⟩
  | .hbm, ⟨60, _⟩ => ⟨S200000x64, .f32⟩
  | .hbm, ⟨61, _⟩ => ⟨S1600000x1, .i32⟩
  | .hbm, ⟨62, _⟩ => ⟨S200000x64, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S200000x128, .f32⟩
  | .local _ .vmem, ⟨0, _⟩ => ⟨S5000x128, .f32⟩
  | .local _ .vmem, ⟨1, _⟩ => ⟨S5000x128, .f32⟩
  | .local _ .vmem, ⟨2, _⟩ => ⟨S5000x6, .f32⟩
  | .local _ .vmem, ⟨3, _⟩ => ⟨S5000x6, .f32⟩
  | .local _ .vmem, ⟨4, _⟩ => ⟨S128x128, .f32⟩
  | .local _ .vmem, ⟨5, _⟩ => ⟨S1x128, .f32⟩
  | .local _ .vmem, ⟨6, _⟩ => ⟨S6x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | .local _ .vmem, ⟨10, _⟩ => ⟨S6400x42, .f32⟩
  | .local _ .vmem, ⟨11, _⟩ => ⟨S6400x42, .f32⟩
  | .local _ .vmem, ⟨12, _⟩ => ⟨S42x64, .f32⟩
  | .local _ .vmem, ⟨13, _⟩ => ⟨S6400x64, .bf16⟩
  | .local _ .vmem, ⟨14, _⟩ => ⟨S6400x64, .bf16⟩
  | .local _ .vmem, ⟨15, _⟩ => ⟨S4000x128, .f32⟩
  | .local _ .vmem, ⟨16, _⟩ => ⟨S4000x128, .f32⟩
  | .local _ .vmem, ⟨17, _⟩ => ⟨S4000x64, .f32⟩
  | .local _ .vmem, ⟨18, _⟩ => ⟨S4000x64, .f32⟩
  | .local _ .vmem, ⟨19, _⟩ => ⟨S64x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S4000x128, .f32⟩
  | .local _ .vmem, ⟨37, _⟩ => ⟨S4000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc2_stg11_0 : Ref sig .tc := ⟨.vmem, 28, rfl⟩
abbrev cc2_stg12_0 : Ref sig .tc := ⟨.vmem, 29, rfl⟩
abbrev cc2_stg13_0 : Ref sig .tc := ⟨.vmem, 30, rfl⟩
abbrev cc2_stg14_0 : Ref sig .tc := ⟨.vmem, 31, rfl⟩
abbrev cc2_stg15_0 : Ref sig .tc := ⟨.vmem, 32, rfl⟩
abbrev cc2_stg16_0 : Ref sig .tc := ⟨.vmem, 33, rfl⟩
abbrev cc2_stg17_0 : Ref sig .tc := ⟨.vmem, 34, rfl⟩
abbrev cc2_stg18_0 : Ref sig .tc := ⟨.vmem, 35, rfl⟩
abbrev cc2_stg19_0 : Ref sig .tc := ⟨.vmem, 36, rfl⟩
abbrev cc2_stg19_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem10_0 : DmaSem sig := 27
abbrev cc2_sem11_0 : DmaSem sig := 28
abbrev cc2_sem12_0 : DmaSem sig := 29
abbrev cc2_sem13_0 : DmaSem sig := 30
abbrev cc2_sem14_0 : DmaSem sig := 31
abbrev cc2_sem15_0 : DmaSem sig := 32
abbrev cc2_sem16_0 : DmaSem sig := 33
abbrev cc2_sem17_0 : DmaSem sig := 34
abbrev cc2_sem18_0 : DmaSem sig := 35
abbrev cc2_sem19_0 : DmaSem sig := 36
abbrev cc2_sem19_1 : DmaSem sig := 37

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x42 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S42x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S6400x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S128x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S128x128 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S1x128 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 2 → Memref sig .tc .vmem S4000x128 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x6_S5000x6_0_0 : ∀ a, (![0, 0] : Fin 2 → Nat) a + S5000x6.size a ≤ S5000x6.size a
  h_S5000x6 : 0 < S5000x6.numel
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  inb_S6400x42_S6400x42_0_0 : ∀ a, (![0, 0] : Fin 2 → Nat) a + S6400x42.size a ≤ S6400x42.size a
  h_S6400x42 : 0 < S6400x42.numel
  inb_S42x64_S42x64_0_0 : ∀ a, (![0, 0] : Fin 2 → Nat) a + S42x64.size a ≤ S42x64.size a
  h_S42x64 : 0 < S42x64.numel
  shapeCasts_S42x64_S42x64 : S42x64.ShapeCasts S42x64
  inb_S6400x64_S6400x64_0_0 : ∀ a, (![0, 0] : Fin 2 → Nat) a + S6400x64.size a ≤ S6400x64.size a
  h_S6400x64 : 0 < S6400x64.numel
  packedbf16_S6400x64_S6400x64_0_0 : (Rect.unit (s := S6400x64) ![0, 0] S6400x64.size inb_S6400x64_S6400x64_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S200000x64 : S_.BroadcastsInDim S200000x64 (![] : Fin 0 → Fin S200000x64.rank)
  inb_S4000x128_S4000x128_0_0 : ∀ a, (![0, 0] : Fin 2 → Nat) a + S4000x128.size a ≤ S4000x128.size a
  h_S4000x128 : 0 < S4000x128.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x128_S64x128_0_0 : ∀ a, (![0, 0] : Fin 2 → Nat) a + S64x128.size a ≤ S64x128.size a
  h_S64x128 : 0 < S64x128.numel
  broadcasts_S1x128_S4000x128 : S1x128.Broadcasts S4000x128
  dot_S6x8_S8x128_S6x128_1_0_0_1_n_n_wf : DotDims.WF S6x8 S8x128 S6x128 [1] [0] [0] [1] [] []
  dot_S42x8_S8x64_S42x64_1_0_0_1_n_n_wf : DotDims.WF S42x8 S8x64 S42x64 [1] [0] [0] [1] [] []
  dot_S5000x128_S128x128_S5000x128_1_0_0_1_n_n_wf : DotDims.WF S5000x128 S128x128 S5000x128 [1] [0] [0] [1] [] []
  dot_S5000x6_S6x128_S5000x128_1_0_0_1_n_n_wf : DotDims.WF S5000x6 S6x128 S5000x128 [1] [0] [0] [1] [] []
  dot_S5000x128_S128x64_S5000x64_1_0_0_1_n_n_wf : DotDims.WF S5000x128 S128x64 S5000x64 [1] [0] [0] [1] [] []
  dot_S6400x42_S42x64_S6400x64_1_0_0_1_n_n_wf : DotDims.WF S6400x42 S42x64 S6400x64 [1] [0] [0] [1] [] []
  gather_S200000x64_S1600000x1_S1600000x64_1_0_n_n_0_1_164_wf : GatherDims.WF S200000x64 S1600000x1 S1600000x64 [1] [0] [] [0] [] 1 ![1, 64]
  scatter_S200000x64_S1600000x1_S1600000x64_1_0_0_1_wf : ScatterDims.WF S200000x64 S1600000x1 S1600000x64 [1] [0] [0] 1
  dot_S4000x64_S64x128_S4000x128_1_0_0_1_n_n_wf : DotDims.WF S4000x64 S64x128 S4000x128 [1] [0] [0] [1] [] []
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x6.size a ≤ S200000x6.size a
  hwx0_1 : ∀ i : grid0.Coords, EltTy.bits .f32 = 32 ∨ (Rect.block (s := S200000x6) S5000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x128.size a ≤ S6x128.size a
  hwx0_4 : ∀ i : grid0.Coords, EltTy.bits .f32 = 32 ∨ (Rect.block (s := S6x128) S6x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S200000x64.size a
  hwx0_6 : ∀ i : grid0.Coords, EltTy.bits .f32 = 32 ∨ (Rect.block (s := S200000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x42.size a ≤ S1600000x42.size a
  hwx1_0 : ∀ i : grid1.Coords, EltTy.bits .f32 = 32 ∨ (Rect.block (s := S1600000x42) S6400x42.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S42x64.size a ≤ S42x64.size a
  hwx1_1 : ∀ i : grid1.Coords, EltTy.bits .f32 = 32 ∨ (Rect.block (s := S42x64) S42x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x64.size a ≤ S1600000x64.size a
  hwx1_2 : ∀ i : grid1.Coords, EltTy.bits .bf16 = 32 ∨ (Rect.block (s := S1600000x64) S6400x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S200000x128.size a
  hwx2_0 : ∀ i : grid2.Coords, EltTy.bits .f32 = 32 ∨ (Rect.block (s := S200000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S200000x64.size a
  hwx2_1 : ∀ i : grid2.Coords, EltTy.bits .f32 = 32 ∨ (Rect.block (s := S200000x64) S4000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x128.size a ≤ S128x128.size a
  hwx2_13 : ∀ i : grid2.Coords, EltTy.bits .f32 = 32 ∨ (Rect.block (s := S128x128) S128x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x128.size a ≤ S1x128.size a
  hwx2_14 : ∀ i : grid2.Coords, EltTy.bits .f32 = 32 ∨ (Rect.block (s := S1x128) S1x128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S128x128.size a ≤ S128x128.size a
  hwx2_15 : ∀ i : grid2.Coords, EltTy.bits .f32 = 32 ∨ (Rect.block (s := S128x128) S128x128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S1x128.size a ≤ S1x128.size a
  hwx2_16 : ∀ i : grid2.Coords, EltTy.bits .f32 = 32 ∨ (Rect.block (s := S1x128) S1x128.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S128x128.size a ≤ S128x128.size a
  hwx2_17 : ∀ i : grid2.Coords, EltTy.bits .f32 = 32 ∨ (Rect.block (s := S128x128) S128x128.size (cc2_transform_17 i) (hinb2_17 i)).WholeWords (EltTy.packing .f32)
  hstage2_18 : ∀ j, (stage2_18 j).IsWhole
  nbuf2_18 : grid2.bufCount reads2_18 true = 1
  hreads2_18 : ∀ i i' : grid2.Coords, (∀ a, reads2_18 a = true → i a = i' a) → cc2_transform_18 i = cc2_transform_18 i'
  hinb2_18 : ∀ (i : grid2.Coords) a, (cc2_transform_18 i a + 1) * S1x128.size a ≤ S1x128.size a
  hwx2_18 : ∀ i : grid2.Coords, EltTy.bits .f32 = 32 ∨ (Rect.block (s := S1x128) S1x128.size (cc2_transform_18 i) (hinb2_18 i)).WholeWords (EltTy.packing .f32)
  hstage2_19 : ∀ j, (stage2_19 j).IsWhole
  nbuf2_19 : grid2.bufCount reads2_19 false = 2
  hreads2_19 : ∀ i i' : grid2.Coords, (∀ a, reads2_19 a = true → i a = i' a) → cc2_transform_19 i = cc2_transform_19 i'
  hinb2_19 : ∀ (i : grid2.Coords) a, (cc2_transform_19 i a + 1) * S4000x128.size a ≤ S200000x128.size a
  hwx2_19 : ∀ i : grid2.Coords, EltTy.bits .f32 = 32 ∨ (Rect.block (s := S200000x128) S4000x128.size (cc2_transform_19 i) (hinb2_19 i)).WholeWords (EltTy.packing .f32)

variable [Facts₀]

def dot_S6x8_S8x128_S6x128_1_0_0_1_n_n : DotDims S6x8 S8x128 S6x128 where
  lhsContracting := [1]
  rhsContracting := [0]
  lhsNonContracting := [0]
  rhsNonContracting := [1]
  lhsBatch := []
  rhsBatch := []
  wf := dot_S6x8_S8x128_S6x128_1_0_0_1_n_n_wf
def dot_S42x8_S8x64_S42x64_1_0_0_1_n_n : DotDims S42x8 S8x64 S42x64 where
  lhsContracting := [1]
  rhsContracting := [0]
  lhsNonContracting := [0]
  rhsNonContracting := [1]
  lhsBatch := []
  rhsBatch := []
  wf := dot_S42x8_S8x64_S42x64_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x6_S6x128_S5000x128_1_0_0_1_n_n : DotDims S5000x6 S6x128 S5000x128 where
  lhsContracting := [1]
  rhsContracting := [0]
  lhsNonContracting := [0]
  rhsNonContracting := [1]
  lhsBatch := []
  rhsBatch := []
  wf := dot_S5000x6_S6x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S6400x42_S42x64_S6400x64_1_0_0_1_n_n : DotDims S6400x42 S42x64 S6400x64 where
  lhsContracting := [1]
  rhsContracting := [0]
  lhsNonContracting := [0]
  rhsNonContracting := [1]
  lhsBatch := []
  rhsBatch := []
  wf := dot_S6400x42_S42x64_S6400x64_1_0_0_1_n_n_wf
def gather_S200000x64_S1600000x1_S1600000x64_1_0_n_n_0_1_164 : GatherDims S200000x64 S1600000x1 S1600000x64 where
  offsetDims := [1]
  collapsedSliceDims := [0]
  operandBatchingDims := []
  startIndicesBatchingDims := []
  startIndexMap := [0]
  indexVectorDim := 1
  sliceSizes := ![1, 64]
  wf := gather_S200000x64_S1600000x1_S1600000x64_1_0_n_n_0_1_164_wf
def scatter_S200000x64_S1600000x1_S1600000x64_1_0_0_1 : ScatterDims S200000x64 S1600000x1 S1600000x64 where
  updateWindowDims := [1]
  insertedWindowDims := [0]
  scatterDimsToOperandDims := [0]
  indexVectorDim := 1
  wf := scatter_S200000x64_S1600000x1_S1600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S6x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S6400x42.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S42x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S6400x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v12) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg15) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v13) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg17) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v14) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg19) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v15) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg21) S128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v16) S1x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_arg23) S128x128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v17) S1x128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_arg25) S128x128.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v18) S1x128.size cc2_transform_18 reads2_18 false true 1 stage2_18 sem2_18
    hrank2 hreads2_18 hinb2_18 nbuf2_18 (Memref.isWhole_whole _) hwx2_18 hstage2_18

abbrev win2_19 : Pipeline.Window sig grid2 :=
  Pipeline.Window.ofSpec (Memref.whole main_v19) S4000x128.size cc2_transform_19 reads2_19 true false 2 stage2_19 sem2_19
    hrank2 hreads2_19 hinb2_19 nbuf2_19 (Memref.isWhole_whole _) hwx2_19 hstage2_19

abbrev win2 : Fin 20 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | ⟨_ + 20, h⟩ => absurd h (Nat.not_lt.2 (Nat.le_add_left _ _))
abbrev spec2 : Fin 20 → Pipeline.WinSpec sig grid2.rank := fun w => (win2 w).toWinSpec

class Facts : Prop extends Facts₀ where

variable [Facts]
-- ==== ReferenceIdeal.lean ====
abbrev S200000x128 : Shape := ⟨2, ![200000, 128]⟩
abbrev S200000x6 : Shape := ⟨2, ![200000, 6]⟩
abbrev S1600000x42 : Shape := ⟨2, ![1600000, 42]⟩
abbrev S128x128 : Shape := ⟨2, ![128, 128]⟩
abbrev S128 : Shape := ⟨1, ![128]⟩
abbrev S6x8 : Shape := ⟨2, ![6, 8]⟩
abbrev S8x128 : Shape := ⟨2, ![8, 128]⟩
abbrev S128x64 : Shape := ⟨2, ![128, 64]⟩
abbrev S42x8 : Shape := ⟨2, ![42, 8]⟩
abbrev S8x64 : Shape := ⟨2, ![8, 64]⟩
abbrev S64x128 : Shape := ⟨2, ![64, 128]⟩
abbrev S1600000 : Shape := ⟨1, ![1600000]⟩
abbrev S1x128 : Shape := ⟨2, ![1, 128]⟩
abbrev S_ : Shape := ⟨0, ![]⟩
abbrev S200000x8 : Shape := ⟨2, ![200000, 8]⟩
abbrev S200000x64 : Shape := ⟨2, ![200000, 64]⟩
abbrev S1600000x1 : Shape := ⟨2, ![1600000, 1]⟩
abbrev S1600000x64 : Shape := ⟨2, ![1600000, 64]⟩
abbrev S1600000x8 : Shape := ⟨2, ![1600000, 8]⟩

abbrev nBuf : Space → Nat
  | .hbm => 190
  | .vmem => 0
  | .smem => 0
  | _ => 0

abbrev hbmTy0_0 (i : Nat) : BufTy := match i % 128 with
  | 0 => ⟨S200000x128, .f32⟩
  | 1 => ⟨S200000x6, .f32⟩
  | 2 => ⟨S1600000x42, .f32⟩
  | 3 => ⟨S128x128, .f32⟩
  | 4 => ⟨S128, .f32⟩
  | 5 => ⟨S6x8, .f32⟩
  | 6 => ⟨S8x128, .f32⟩
  | 7 => ⟨S128x64, .f32⟩
  | 8 => ⟨S42x8, .f32⟩
  | 9 => ⟨S8x64, .f32⟩
  | 10 => ⟨S64x128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128x128, .f32⟩
  | 26 => ⟨S128, .f32⟩
  | 27 => ⟨S1600000, .i32⟩
  | 28 => ⟨S1600000, .i32⟩
  | 29 => ⟨S200000x128, .f32⟩
  | 30 => ⟨S1x128, .f32⟩
  | 31 => ⟨S200000x128, .f32⟩
  | 32 => ⟨S200000x128, .f32⟩
  | 33 => ⟨S200000x128, .f32⟩
  | 34 => ⟨S200000x128, .f32⟩
  | 35 => ⟨S_, .f32⟩
  | 36 => ⟨S200000x128, .f32⟩
  | 37 => ⟨S200000x128, .f32⟩
  | 38 => ⟨S_, .f32⟩
  | 39 => ⟨S200000x128, .f32⟩
  | 40 => ⟨S200000x128, .f32⟩
  | 41 => ⟨S200000x128, .f32⟩
  | 42 => ⟨S200000x8, .f32⟩
  | 43 => ⟨S200000x128, .f32⟩
  | 44 => ⟨S200000x128, .f32⟩
  | 45 => ⟨S200000x64, .f32⟩
  | 46 => ⟨S200000x64, .f32⟩
  | 47 => ⟨S200000x64, .f32⟩
  | 48 => ⟨S_, .f32⟩
  | 49 => ⟨S200000x64, .f32⟩
  | 50 => ⟨S200000x64, .f32⟩
  | 51 => ⟨S_, .f32⟩
  | 52 => ⟨S200000x64, .f32⟩
  | 53 => ⟨S200000x64, .f32⟩
  | 54 => ⟨S200000x64, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S1600000x8, .f32⟩
  | 65 => ⟨S1600000x64, .f32⟩
  | 66 => ⟨S1600000x64, .f32⟩
  | 67 => ⟨S_, .f32⟩
  | 68 => ⟨S200000x64, .f32⟩
  | 69 => ⟨S1600000x1, .i32⟩
  | 70 => ⟨S200000x64, .f32⟩
  | 71 => ⟨S200000x128, .f32⟩
  | 72 => ⟨S200000x128, .f32⟩
  | 73 => ⟨S200000x128, .f32⟩
  | 74 => ⟨S_, .f32⟩
  | 75 => ⟨S200000x128, .f32⟩
  | 76 => ⟨S200000x128, .f32⟩
  | 77 => ⟨S_, .f32⟩
  | 78 => ⟨S200000x128, .f32⟩
  | 79 => ⟨S200000x128, .f32⟩
  | 80 => ⟨S200000x128, .f32⟩
  | 81 => ⟨S200000x128, .f32⟩
  | 82 => ⟨S1x128, .f32⟩
  | 83 => ⟨S200000x128, .f32⟩
  | 84 => ⟨S200000x128, .f32⟩
  | 85 => ⟨S200000x128, .f32⟩
  | 86 => ⟨S200000x128, .f32⟩
  | 87 => ⟨S_, .f32⟩
  | 88 => ⟨S200000x128, .f32⟩
  | 89 => ⟨S200000x128, .f32⟩
  | 90 => ⟨S_, .f32⟩
  | 91 => ⟨S200000x128, .f32⟩
  | 92 => ⟨S200000x128, .f32⟩
  | 93 => ⟨S200000x128, .f32⟩
  | 94 => ⟨S200000x128, .f32⟩
  | 95 => ⟨S200000x128, .f32⟩
  | 96 => ⟨S1x128, .f32⟩
  | 97 => ⟨S200000x128, .f32⟩
  | 98 => ⟨S200000x128, .f32⟩
  | 99 => ⟨S200000x128, .f32⟩
  | 100 => ⟨S200000x128, .f32⟩
  | 101 => ⟨S_, .f32⟩
  | 102 => ⟨S200000x128, .f32⟩
  | 103 => ⟨S200000x128, .f32⟩
  | 104 => ⟨S_, .f32⟩
  | 105 => ⟨S200000x128, .f32⟩
  | 106 => ⟨S200000x128, .f32⟩
  | 107 => ⟨S200000x128, .f32⟩
  | 108 => ⟨S200000x128, .f32⟩
  | 109 => ⟨S1x128, .f32⟩
  | 110 => ⟨S200000x128, .f32⟩
  | 111 => ⟨S200000x128, .f32⟩
  | 112 => ⟨S200000x128, .f32⟩
  | 113 => ⟨S200000x128, .f32⟩
  | 114 => ⟨S_, .f32⟩
  | 115 => ⟨S200000x128, .f32⟩
  | 116 => ⟨S200000x128, .f32⟩
  | 117 => ⟨S_, .f32⟩
  | 118 => ⟨S200000x128, .f32⟩
  | 119 => ⟨S200000x128, .f32⟩
  | 120 => ⟨S200000x128, .f32⟩
  | 121 => ⟨S200000x128, .f32⟩
  | 122 => ⟨S200000x128, .f32⟩
  | 123 => ⟨S1x128, .f32⟩
  | 124 => ⟨S200000x128, .f32⟩
  | 125 => ⟨S200000x128, .f32⟩
  | 126 => ⟨S200000x128, .f32⟩
  | 127 => ⟨S200000x128, .f32⟩
  | _ => ⟨S200000x128, .f32⟩

abbrev hbmTy0_1 (i : Nat) : BufTy := match i % 128 with
  | 0 => ⟨S_, .f32⟩
  | 1 => ⟨S200000x128, .f32⟩
  | 2 => ⟨S200000x128, .f32⟩
  | 3 => ⟨S_, .f32⟩
  | 4 => ⟨S200000x128, .f32⟩
  | 5 => ⟨S200000x128, .f32⟩
  | 6 => ⟨S200000x128, .f32⟩
  | 7 => ⟨S200000x128, .f32⟩
  | 8 => ⟨S200000x128, .f32⟩
  | 9 => ⟨S1x128, .f32⟩
  | 10 => ⟨S200000x128, .f32⟩
  | 11 => ⟨S200000x128, .f32⟩
  | 12 => ⟨S200000x128, .f32⟩
  | 13 => ⟨S200000x128, .f32⟩
  | 14 => ⟨S_, .f32⟩
  | 15 => ⟨S200000x128, .f32⟩
  | 16 => ⟨S200000x128, .f32⟩
  | 17 => ⟨S_, .f32⟩
  | 18 => ⟨S200000x128, .f32⟩
  | 19 => ⟨S200000x128, .f32⟩
  | 20 => ⟨S200000x128, .f32⟩
  | 21 => ⟨S200000x128, .f32⟩
  | 22 => ⟨S1x128, .f32⟩
  | 23 => ⟨S200000x128, .f32⟩
  | 24 => ⟨S200000x128, .f32⟩
  | 25 => ⟨S200000x128, .f32⟩
  | 26 => ⟨S200000x128, .f32⟩
  | 27 => ⟨S_, .f32⟩
  | 28 => ⟨S200000x128, .f32⟩
  | 29 => ⟨S200000x128, .f32⟩
  | 30 => ⟨S_, .f32⟩
  | 31 => ⟨S200000x128, .f32⟩
  | 32 => ⟨S200000x128, .f32⟩
  | 33 => ⟨S200000x128, .f32⟩
  | 34 => ⟨S200000x128, .f32⟩
  | 35 => ⟨S200000x128, .f32⟩
  | 36 => ⟨S1x128, .f32⟩
  | 37 => ⟨S200000x128, .f32⟩
  | 38 => ⟨S200000x128, .f32⟩
  | 39 => ⟨S200000x128, .f32⟩
  | 40 => ⟨S200000x128, .f32⟩
  | 41 => ⟨S_, .f32⟩
  | 42 => ⟨S200000x128, .f32⟩
  | 43 => ⟨S200000x128, .f32⟩
  | 44 => ⟨S_, .f32⟩
  | 45 => ⟨S200000x128, .f32⟩
  | 46 => ⟨S200000x128, .f32⟩
  | 47 => ⟨S200000x128, .f32⟩
  | 48 => ⟨S200000x128, .f32⟩
  | 49 => ⟨S1x128, .f32⟩
  | 50 => ⟨S200000x128, .f32⟩
  | 51 => ⟨S200000x128, .f32⟩
  | 52 => ⟨S200000x128, .f32⟩
  | 53 => ⟨S200000x128, .f32⟩
  | 54 => ⟨S_, .f32⟩
  | 55 => ⟨S200000x128, .f32⟩
  | 56 => ⟨S200000x128, .f32⟩
  | 57 => ⟨S_, .f32⟩
  | 58 => ⟨S200000x128, .f32⟩
  | 59 => ⟨S200000x128, .f32⟩
  | 60 => ⟨S200000x128, .f32⟩
  | 61 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v9 : Ref sig .tc := ⟨.hbm, 54, rfl⟩
abbrev main_c : Ref sig .tc := ⟨.hbm, 55, rfl⟩
abbrev main_v10 : Ref sig .tc := ⟨.hbm, 56, rfl⟩
abbrev main_v11 : Ref sig .tc := ⟨.hbm, 57, rfl⟩
abbrev main_c_0 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_cst : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_call2_v0 : Ref sig .tc := ⟨.hbm, 72, rfl⟩
abbrev main_call2_v1 : Ref sig .tc := ⟨.hbm, 73, rfl⟩
abbrev main_call2_cst : Ref sig .tc := ⟨.hbm, 74, rfl⟩
abbrev main_call2_v2 : Ref sig .tc := ⟨.hbm, 75, rfl⟩
abbrev main_call2_v3 : Ref sig .tc := ⟨.hbm, 76, rfl⟩
abbrev main_call2_cst_0 : Ref sig .tc := ⟨.hbm, 77, rfl⟩
abbrev main_call2_v4 : Ref sig .tc := ⟨.hbm, 78, rfl⟩
abbrev main_call2_v5 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_call4_v0 : Ref sig .tc := ⟨.hbm, 99, rfl⟩
abbrev main_call4_v1 : Ref sig .tc := ⟨.hbm, 100, rfl⟩
abbrev main_call4_cst : Ref sig .tc := ⟨.hbm, 101, rfl⟩
abbrev main_call4_v2 : Ref sig .tc := ⟨.hbm, 102, rfl⟩
abbrev main_call4_v3 : Ref sig .tc := ⟨.hbm, 103, rfl⟩
abbrev main_call4_cst_0 : Ref sig .tc := ⟨.hbm, 104, rfl⟩
abbrev main_call4_v4 : Ref sig .tc := ⟨.hbm, 105, rfl⟩
abbrev main_call4_v5 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_call5_v0 : Ref sig .tc := ⟨.hbm, 112, rfl⟩
abbrev main_call5_v1 : Ref sig .tc := ⟨.hbm, 113, rfl⟩
abbrev main_call5_cst : Ref sig .tc := ⟨.hbm, 114, rfl⟩
abbrev main_call5_v2 : Ref sig .tc := ⟨.hbm, 115, rfl⟩
abbrev main_call5_v3 : Ref sig .tc := ⟨.hbm, 116, rfl⟩
abbrev main_call5_cst_0 : Ref sig .tc := ⟨.hbm, 117, rfl⟩
abbrev main_call5_v4 : Ref sig .tc := ⟨.hbm, 118, rfl⟩
abbrev main_call5_v5 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_call6_v0 : Ref sig .tc := ⟨.hbm, 126, rfl⟩
abbrev main_call6_v1 : Ref sig .tc := ⟨.hbm, 127, rfl⟩
abbrev main_call6_cst : Ref sig .tc := ⟨.hbm, 128, rfl⟩
abbrev main_call6_v2 : Ref sig .tc := ⟨.hbm, 129, rfl⟩
abbrev main_call6_v3 : Ref sig .tc := ⟨.hbm, 130, rfl⟩
abbrev main_call6_cst_0 : Ref sig .tc := ⟨.hbm, 131, rfl⟩
abbrev main_call6_v4 : Ref sig .tc := ⟨.hbm, 132, rfl⟩
abbrev main_call6_v5 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_call7_v0 : Ref sig .tc := ⟨.hbm, 140, rfl⟩
abbrev main_call7_v1 : Ref sig .tc := ⟨.hbm, 141, rfl⟩
abbrev main_call7_cst : Ref sig .tc := ⟨.hbm, 142, rfl⟩
abbrev main_call7_v2 : Ref sig .tc := ⟨.hbm, 143, rfl⟩
abbrev main_call7_v3 : Ref sig .tc := ⟨.hbm, 144, rfl⟩
abbrev main_call7_cst_0 : Ref sig .tc := ⟨.hbm, 145, rfl⟩
abbrev main_call7_v4 : Ref sig .tc := ⟨.hbm, 146, rfl⟩
abbrev main_call7_v5 : Ref sig .tc := ⟨.hbm, 147, rfl⟩
abbrev main_v52 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_call8_v0 : Ref sig .tc := ⟨.hbm, 153, rfl⟩
abbrev main_call8_v1 : Ref sig .tc := ⟨.hbm, 154, rfl⟩
abbrev main_call8_cst : Ref sig .tc := ⟨.hbm, 155, rfl⟩
abbrev main_call8_v2 : Ref sig .tc := ⟨.hbm, 156, rfl⟩
abbrev main_call8_v3 : Ref sig .tc := ⟨.hbm, 157, rfl⟩
abbrev main_call8_cst_0 : Ref sig .tc := ⟨.hbm, 158, rfl⟩
abbrev main_call8_v4 : Ref sig .tc := ⟨.hbm, 159, rfl⟩
abbrev main_call8_v5 : Ref sig .tc := ⟨.hbm, 160, rfl⟩
abbrev main_v57 : Ref sig .tc := ⟨.hbm, 161, rfl⟩
abbrev main_v58 : Ref sig .tc := ⟨.hbm, 162, rfl⟩
abbrev main_v59 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_call9_v0 : Ref sig .tc := ⟨.hbm, 167, rfl⟩
abbrev main_call9_v1 : Ref sig .tc := ⟨.hbm, 168, rfl⟩
abbrev main_call9_cst : Ref sig .tc := ⟨.hbm, 169, rfl⟩
abbrev main_call9_v2 : Ref sig .tc := ⟨.hbm, 170, rfl⟩
abbrev main_call9_v3 : Ref sig .tc := ⟨.hbm, 171, rfl⟩
abbrev main_call9_cst_0 : Ref sig .tc := ⟨.hbm, 172, rfl⟩
abbrev main_call9_v4 : Ref sig .tc := ⟨.hbm, 173, rfl⟩
abbrev main_call9_v5 : Ref sig .tc := ⟨.hbm, 174, rfl⟩
abbrev main_v63 : Ref sig .tc := ⟨.hbm, 175, rfl⟩
abbrev main_v64 : Ref sig .tc := ⟨.hbm, 176, rfl⟩
abbrev main_v65 : Ref sig .tc := ⟨.hbm, 177, rfl⟩
abbrev main_v66 : Ref sig .tc := ⟨.hbm, 178, rfl⟩
abbrev main_v67 : Ref sig .tc := ⟨.hbm, 179, rfl⟩
abbrev main_call10_v0 : Ref sig .tc := ⟨.hbm, 180, rfl⟩
abbrev main_call10_v1 : Ref sig .tc := ⟨.hbm, 181, rfl⟩
abbrev main_call10_cst : Ref sig .tc := ⟨.hbm, 182, rfl⟩
abbrev main_call10_v2 : Ref sig .tc := ⟨.hbm, 183, rfl⟩
abbrev main_call10_v3 : Ref sig .tc := ⟨.hbm, 184, rfl⟩
abbrev main_call10_cst_0 : Ref sig .tc := ⟨.hbm, 185, rfl⟩
abbrev main_call10_v4 : Ref sig .tc := ⟨.hbm, 186, rfl⟩
abbrev main_call10_v5 : Ref sig .tc := ⟨.hbm, 187, rfl⟩
abbrev main_v68 : Ref sig .tc := ⟨.hbm, 188, rfl⟩
abbrev main_v69 : Ref sig .tc := ⟨.hbm, 189, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S200000x64 : S_.BroadcastsInDim S200000x64 (![] : Fin 0 → Fin S200000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  dot_S200000x128_S128x128_S200000x128_1_0_0_1_n_n_wf : DotDims.WF S200000x128 S128x128 S200000x128 [1] [0] [0] [1] [] []
  dot_S200000x6_S6x8_S200000x8_1_0_0_1_n_n_wf : DotDims.WF S200000x6 S6x8 S200000x8 [1] [0] [0] [1] [] []
  dot_S200000x8_S8x128_S200000x128_1_0_0_1_n_n_wf : DotDims.WF S200000x8 S8x128 S200000x128 [1] [0] [0] [1] [] []
  dot_S200000x128_S128x64_S200000x64_1_0_0_1_n_n_wf : DotDims.WF S200000x128 S128x64 S200000x64 [1] [0] [0] [1] [] []
  gather_S200000x64_S1600000x1_S1600000x64_1_0_n_n_0_1_164_wf : GatherDims.WF S200000x64 S1600000x1 S1600000x64 [1] [0] [] [0] [] 1 ![1, 64]
  dot_S1600000x42_S42x8_S1600000x8_1_0_0_1_n_n_wf : DotDims.WF S1600000x42 S42x8 S1600000x8 [1] [0] [0] [1] [] []
  dot_S1600000x8_S8x64_S1600000x64_1_0_0_1_n_n_wf : DotDims.WF S1600000x8 S8x64 S1600000x64 [1] [0] [0] [1] [] []
  scatter_S200000x64_S1600000x1_S1600000x64_1_0_0_1_wf : ScatterDims.WF S200000x64 S1600000x1 S1600000x64 [1] [0] [0] 1
  dot_S200000x64_S64x128_S200000x128_1_0_0_1_n_n_wf : DotDims.WF S200000x64 S64x128 S200000x128 [1] [0] [0] [1] [] []

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x6_S6x8_S200000x8_1_0_0_1_n_n : DotDims S200000x6 S6x8 S200000x8 where
  lhsContracting := [1]
  rhsContracting := [0]
  lhsNonContracting := [0]
  rhsNonContracting := [1]
  lhsBatch := []
  rhsBatch := []
  wf := dot_S200000x6_S6x8_S200000x8_1_0_0_1_n_n_wf
def dot_S200000x8_S8x128_S200000x128_1_0_0_1_n_n : DotDims S200000x8 S8x128 S200000x128 where
  lhsContracting := [1]
  rhsContracting := [0]
  lhsNonContracting := [0]
  rhsNonContracting := [1]
  lhsBatch := []
  rhsBatch := []
  wf := dot_S200000x8_S8x128_S200000x128_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def gather_S200000x64_S1600000x1_S1600000x64_1_0_n_n_0_1_164 : GatherDims S200000x64 S1600000x1 S1600000x64 where
  offsetDims := [1]
  collapsedSliceDims := [0]
  operandBatchingDims := []
  startIndicesBatchingDims := []
  startIndexMap := [0]
  indexVectorDim := 1
  sliceSizes := ![1, 64]
  wf := gather_S200000x64_S1600000x1_S1600000x64_1_0_n_n_0_1_164_wf
def dot_S1600000x42_S42x8_S1600000x8_1_0_0_1_n_n : DotDims S1600000x42 S42x8 S1600000x8 where
  lhsContracting := [1]
  rhsContracting := [0]
  lhsNonContracting := [0]
  rhsNonContracting := [1]
  lhsBatch := []
  rhsBatch := []
  wf := dot_S1600000x42_S42x8_S1600000x8_1_0_0_1_n_n_wf
def dot_S1600000x8_S8x64_S1600000x64_1_0_0_1_n_n : DotDims S1600000x8 S8x64 S1600000x64 where
  lhsContracting := [1]
  rhsContracting := [0]
  lhsNonContracting := [0]
  rhsNonContracting := [1]
  lhsBatch := []
  rhsBatch := []
  wf := dot_S1600000x8_S8x64_S1600000x64_1_0_0_1_n_n_wf
def scatter_S200000x64_S1600000x1_S1600000x64_1_0_0_1 : ScatterDims S200000x64 S1600000x1 S1600000x64 where
  updateWindowDims := [1]
  insertedWindowDims := [0]
  scatterDimsToOperandDims := [0]
  indexVectorDim := 1
  wf := scatter_S200000x64_S1600000x1_S1600000x64_1_0_0_1_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf

class Facts : Prop extends Facts₀ where

variable [Facts]
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.LibDense.lean ====
/-
  Dense stages with the sigmoid-weighted linear unit  silu x = x * logistic x  on the extended reals, index by index:
  a matrix product (the sum over the middle coordinate), a bias row added to every row, the activation, and sums
  and products of two arrays entry by entry.  Everything is written over PLAIN coordinates (`Fin`) and is generic in the
  number of rows, so that a kernel's row block and the whole array are the same function of their rows
  (`mm_row`, `dense_row`, `res_row`), and each stage is read off the two spellings a program may give it: the vector
  dialect's (a matrix-unit product into a zero accumulator, a one-row bias broadcast down the rows, `logistic`) and the
  host's (a `dot_general`, the bias broadcast in two steps, the logistic written out as  1 / (1 + exp (-x)) ).
  Last, the product of three matrices with real entries does not depend on the bracketing (`mm_assoc`): over the
  extended reals this needs the entries finite, since distributivity fails at the infinities.
-/
import Idealize.ShloMosaic.PureOps.Ideal
import Idealize.ShloMosaic.PureOps.Ideal.Laws
import Idealize.ShloMosaic.Lib.ValueIdx
import Idealize.ShloMosaic.Lib.Pipeline.Value
import proofs.«424410_j63531156242867_2_alg».proof.Proof.LibMlp

noncomputable section

open Idealize.ShloMosaic Idealize.ShloMosaic.ValueIdx

namespace Cert.Dense

/-- An N×K array of extended reals. -/
abbrev Mat (N K : ℕ) : Type := (⟨2, ![N, K]⟩ : Shape).Idx → EReal

/-- The sigmoid-weighted linear unit. -/
def silu (x : EReal) : EReal := x * Ideal.logistic x

/-- The matrix product: entry (p, q) is the sum over k of a (p, k) * W (k, q). -/
def mm {N K H : ℕ} (a : Mat N K) (W : Mat K H) : Mat N H := fun i => ∑ k : Fin K, a (ix2 (i 0) k) * W (ix2 k (i 1))
/-- The activation, entry by entry. -/
def act {S : Shape} (a : S.Idx → EReal) : S.Idx → EReal := fun i => silu (a i)
/-- A bias vector added to every row. -/
def addRow {N H : ℕ} (a : Mat N H) (b : Fin H → EReal) : Mat N H := fun i => a i + b (i 1)
/-- Entry-by-entry sum and product. -/
def hadd {S : Shape} (a b : S.Idx → EReal) : S.Idx → EReal := fun i => a i + b i
def hmul {S : Shape} (a b : S.Idx → EReal) : S.Idx → EReal := fun i => a i * b i
/-- A dense layer: product, bias, activation. -/
def dense {N K H : ℕ} (a : Mat N K) (W : Mat K H) (b : Fin H → EReal) : Mat N H := act (addRow (mm a W) b)
/-- A residual layer: the input plus two dense layers of it. -/
def res {N D : ℕ} (x : Mat N D) (W1 : Mat D D) (b1 : Fin D → EReal) (W2 : Mat D D) (b2 : Fin D → EReal) : Mat N D :=
  hadd x (dense (dense x W1 b1) W2 b2)

/-! ## Each stage reads only the row it is asked for -/

theorem mm_row {N N' K H : ℕ} (a : Mat N K) (a' : Mat N' K) (W : Mat K H) (r : Fin N) (r' : Fin N')
    (h : ∀ k : Fin K, a (ix2 r k) = a' (ix2 r' k)) (j : Fin H) : mm a W (ix2 r j) = mm a' W (ix2 r' j) := by
  show (∑ k : Fin K, a (ix2 r k) * W (ix2 k j)) = ∑ k : Fin K, a' (ix2 r' k) * W (ix2 k j)
  exact Finset.sum_congr rfl fun k _ => by rw [h k]

theorem dense_row {N N' K H : ℕ} (a : Mat N K) (a' : Mat N' K) (W : Mat K H) (b : Fin H → EReal) (r : Fin N) (r' : Fin N')
    (h : ∀ k : Fin K, a (ix2 r k) = a' (ix2 r' k)) (j : Fin H) : dense a W b (ix2 r j) = dense a' W b (ix2 r' j) := by
  show silu (mm a W (ix2 r j) + b j) = silu (mm a' W (ix2 r' j) + b j)
  rw [mm_row a a' W r r' h j]

theorem res_row {N N' D : ℕ} (x : Mat N D) (x' : Mat N' D) (W1 : Mat D D) (b1 : Fin D → EReal) (W2 : Mat D D)
    (b2 : Fin D → EReal) (r : Fin N) (r' : Fin N') (h : ∀ k : Fin D, x (ix2 r k) = x' (ix2 r' k)) (j : Fin D) :
    res x W1 b1 W2 b2 (ix2 r j) = res x' W1 b1 W2 b2 (ix2 r' j) := by
  show x (ix2 r j) + dense (dense x W1 b1) W2 b2 (ix2 r j) = x' (ix2 r' j) + dense (dense x' W1 b1) W2 b2 (ix2 r' j)
  rw [h j, dense_row (dense x W1 b1) (dense x' W1 b1) W2 b2 r r' (fun k => dense_row x x' W1 b1 r r' h k) j]

/-! ## The vector dialect's spelling -/

/-- A change of float format is the identity on the extended reals. -/
theorem truncf_id {S : Shape} {φ ψ : FTy} (a : FVec Ideal S φ) (h : ψ.bits < φ.bits) : (truncf ψ a h : S.Idx → EReal) = a := rfl
theorem extf_id {S : Shape} {φ ψ : FTy} (a : FVec Ideal S φ) (h : φ.bits < ψ.bits) : (extf ψ a h : S.Idx → EReal) = a := rfl

theorem vec_mm {N K H : ℕ} {φa φw : FTy} (d : DotDims ⟨2, ![N, K]⟩ ⟨2, ![K, H]⟩ ⟨2, ![N, H]⟩) (hd : d = DotDims.plain N K H)
    (a : FVec Ideal ⟨2, ![N, K]⟩ φa) (W : FVec Ideal ⟨2, ![K, H]⟩ φw) :
    matmul d none a W (constant ⟨2, ![N, H]⟩ .f32 0x00000000#32) = mm a W := by
  subst hd
  funext i
  obtain ⟨p, q, rfl⟩ : ∃ (p : Fin N) (q : Fin H), i = ix2 p q := ⟨i 0, i 1, eq_ix2 i⟩
  rw [show matmul (DotDims.plain N K H) none a W (constant ⟨2, ![N, H]⟩ .f32 0x00000000#32) (ix2 p q) = _ from
    Ideal.matmul_constant_zero_apply (DotDims.plain N K H) none a W (ix2 p q)]
  exact Cert.Mlp.plain_sum a W (ix2 p q)

theorem vec_addRow {N H : ℕ} (hb : (⟨2, ![1, H]⟩ : Shape).Broadcasts ⟨2, ![N, H]⟩) (a : FVec Ideal ⟨2, ![N, H]⟩ .f32)
    (b : FVec Ideal ⟨2, ![1, H]⟩ .f32) : addf a (broadcastTo ⟨2, ![N, H]⟩ b hb) = addRow a (Cert.Mlp.row b) := by
  funext i
  obtain ⟨p, q, rfl⟩ : ∃ (p : Fin N) (q : Fin H), i = ix2 p q := ⟨i 0, i 1, eq_ix2 i⟩
  show a (ix2 p q) + broadcastTo (⟨2, ![N, H]⟩ : Shape) b hb (ix2 p q) = a (ix2 p q) + b (ix2 0 q)
  rw [Cert.Mlp.bcast_row hb b p q]

theorem vec_act {S : Shape} (x : FVec Ideal S .f32) : mulf x (logistic x) = act x := rfl

/-! ## The host's spelling -/

theorem host_mm {N K H : ℕ} {φa φw : FTy} (d : DotDims ⟨2, ![N, K]⟩ ⟨2, ![K, H]⟩ ⟨2, ![N, H]⟩) (hd : d = DotDims.plain N K H)
    (a : FVec Ideal ⟨2, ![N, K]⟩ φa) (W : FVec Ideal ⟨2, ![K, H]⟩ φw) : Host.dotGeneral d none a W = mm a W := by
  subst hd
  funext i
  obtain ⟨p, q, rfl⟩ : ∃ (p : Fin N) (q : Fin H), i = ix2 p q := ⟨i 0, i 1, eq_ix2 i⟩
  rw [show Host.dotGeneral (DotDims.plain N K H) none a W (ix2 p q) = _ from
    Ideal.dotGeneral_apply (DotDims.plain N K H) none .single a W (ix2 p q)]
  exact Cert.Mlp.plain_sum a W (ix2 p q)

theorem host_addRow {N H : ℕ} (h1 : (⟨1, ![H]⟩ : Shape).BroadcastsInDim ⟨2, ![1, H]⟩ ![1])
    (h2 : (⟨2, ![1, H]⟩ : Shape).BroadcastsInDim ⟨2, ![N, H]⟩ ![0, 1]) (a : FVec Ideal ⟨2, ![N, H]⟩ .f32) (b : FVec Ideal ⟨1, ![H]⟩ .f32) :
    addf a (broadcastInDim (⟨2, ![N, H]⟩ : Shape) ![0, 1] h2 (broadcastInDim (⟨2, ![1, H]⟩ : Shape) ![1] h1 b)) = addRow a (Cert.Mlp.vec b) := by
  funext i
  obtain ⟨p, q, rfl⟩ : ∃ (p : Fin N) (q : Fin H), i = ix2 p q := ⟨i 0, i 1, eq_ix2 i⟩
  show a (ix2 p q) + broadcastInDim (⟨2, ![N, H]⟩ : Shape) ![0, 1] h2 (broadcastInDim (⟨2, ![1, H]⟩ : Shape) ![1] h1 b) (ix2 p q) = a (ix2 p q) + b (ix1 q)
  rw [Cert.Mlp.bcast_two h1 h2 b p q]

/-- The single-precision word of 1.0 is the number 1. -/
theorem one_word : Ideal.ofBits .f32 0x3F800000#32 = 1 := by
  simp [Ideal.ofBits, Ideal.ieee]
  first
    | (rw [← EReal.coe_mul]; norm_num)
    | (norm_cast; norm_num)

/-- The host writes the activation as  x * (1 / (1 + exp (-x))) , the constant 1.0 broadcast to the array. -/
theorem host_act {S : Shape} (h0 : (⟨0, ![]⟩ : Shape).BroadcastsInDim S ![]) (x : FVec Ideal S .f32) :
    mulf x (Host.divf (broadcastInDim S ![] h0 (constant (⟨0, ![]⟩ : Shape) .f32 0x3F800000#32))
      (addf (broadcastInDim S ![] h0 (constant (⟨0, ![]⟩ : Shape) .f32 0x3F800000#32)) (Host.exp (Host.negf x)))) = act x := by
  funext i
  show x i * Ideal.div (Ideal.ofBits .f32 0x3F800000#32) (Ideal.ofBits .f32 0x3F800000#32 + Ideal.exp (-(x i))) = x i * Ideal.div 1 (1 + Ideal.exp (-(x i)))
  rw [one_word]

/-! ## Three matrices with real entries: the bracketing does not matter -/

/-- Every entry is a real number. -/
def IsReal {S : Shape} (a : S.Idx → EReal) : Prop := ∀ i, ∃ r : ℝ, a i = (r : EReal)

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem mm_assoc {N K J H : ℕ} (a : Mat N K) (B : Mat K J) (C : Mat J H) (ha : IsReal a) (hB : IsReal B) (hC : IsReal C) :
    mm (mm a B) C = mm a (mm B C) := by
  choose a' ha' using ha
  choose B' hB' using hB
  choose C' hC' using hC
  funext i
  show (∑ j : Fin J, (∑ k : Fin K, a (ix2 (i 0) k) * B (ix2 k j)) * C (ix2 j (i 1)))
    = ∑ k : Fin K, a (ix2 (i 0) k) * ∑ j : Fin J, B (ix2 k j) * C (ix2 j (i 1))
  simp only [ha', hB', hC', ← EReal.coe_mul, ← coe_sum]
  refine congrArg (fun r : ℝ => (r : EReal)) ?_
  simp only [Finset.sum_mul, Finset.mul_sum]
  rw [Finset.sum_comm]
  exact Finset.sum_congr rfl fun k _ => Finset.sum_congr rfl fun j _ => mul_assoc _ _ _

end Cert.Dense

end
-- ==== Proof.Spec.lean ====
/-
  The two per-edge stages of a directional message-passing block, as functions on the extended reals, generic in the
  number of rows so that a row block and the whole array are the same function of their rows.

  `mang`: the edge embedding through a dense layer, modulated entry by entry by the projected radial basis, projected
  down and activated:   silu ((silu (m · Wkj + bkj) ∘ (rbf · Wrbf)) · Wdown) .
  `final`: the aggregated triplet messages projected up and activated, added to a dense layer of the edge embedding,
  one residual layer, a dense layer with a skip connection back to the embedding, two more residual layers.
-/
import proofs.«424410_j63531156242867_2_alg».proof.Proof.LibDense

noncomputable section

open Idealize.ShloMosaic Idealize.ShloMosaic.ValueIdx Cert.Dense

namespace Cert.Spec

/-- The down-projected, radially modulated edge message, row by row. -/
def mang {N : ℕ} (m : Mat N 128) (rbf : Mat N 6) (Wkj : Mat 128 128) (bkj : Fin 128 → EReal) (Wrbf : Mat 6 128)
    (Wdown : Mat 128 64) : Mat N 64 :=
  act (mm (hmul (dense m Wkj bkj) (mm rbf Wrbf)) Wdown)

theorem mang_row {N N' : ℕ} (m : Mat N 128) (m' : Mat N' 128) (rbf : Mat N 6) (rbf' : Mat N' 6) (Wkj : Mat 128 128)
    (bkj : Fin 128 → EReal) (Wrbf : Mat 6 128) (Wdown : Mat 128 64) (r : Fin N) (r' : Fin N')
    (hm : ∀ k : Fin 128, m (ix2 r k) = m' (ix2 r' k)) (hr : ∀ k : Fin 6, rbf (ix2 r k) = rbf' (ix2 r' k)) (j : Fin 64) :
    mang m rbf Wkj bkj Wrbf Wdown (ix2 r j) = mang m' rbf' Wkj bkj Wrbf Wdown (ix2 r' j) := by
  show silu (mm (hmul (dense m Wkj bkj) (mm rbf Wrbf)) Wdown (ix2 r j))
    = silu (mm (hmul (dense m' Wkj bkj) (mm rbf' Wrbf)) Wdown (ix2 r' j))
  rw [mm_row _ (hmul (dense m' Wkj bkj) (mm rbf' Wrbf)) Wdown r r' (fun k => ?_) j]
  show dense m Wkj bkj (ix2 r k) * mm rbf Wrbf (ix2 r k) = dense m' Wkj bkj (ix2 r' k) * mm rbf' Wrbf (ix2 r' k)
  rw [dense_row m m' Wkj bkj r r' hm k, mm_row rbf rbf' Wrbf r r' hr k]

/-- The block's output: the edge embedding `m` and the aggregated triplet messages `agg` through the combine and
    the residual stack. -/
def final {N : ℕ} (m : Mat N 128) (agg : Mat N 64) (Wup : Mat 64 128) (Wji : Mat 128 128) (bji : Fin 128 → EReal)
    (bW1 : Mat 128 128) (bb1 : Fin 128 → EReal) (bW2 : Mat 128 128) (bb2 : Fin 128 → EReal)
    (Wfin : Mat 128 128) (bfin : Fin 128 → EReal)
    (a1W1 : Mat 128 128) (a1b1 : Fin 128 → EReal) (a1W2 : Mat 128 128) (a1b2 : Fin 128 → EReal)
    (a2W1 : Mat 128 128) (a2b1 : Fin 128 → EReal) (a2W2 : Mat 128 128) (a2b2 : Fin 128 → EReal) : Mat N 128 :=
  res (res (hadd (dense (res (hadd (dense m Wji bji) (act (mm agg Wup))) bW1 bb1 bW2 bb2) Wfin bfin) m)
    a1W1 a1b1 a1W2 a1b2) a2W1 a2b1 a2W2 a2b2

theorem final_row {N N' : ℕ} (m : Mat N 128) (m' : Mat N' 128) (agg : Mat N 64) (agg' : Mat N' 64) (Wup : Mat 64 128)
    (Wji : Mat 128 128) (bji : Fin 128 → EReal)
    (bW1 : Mat 128 128) (bb1 : Fin 128 → EReal) (bW2 : Mat 128 128) (bb2 : Fin 128 → EReal)
    (Wfin : Mat 128 128) (bfin : Fin 128 → EReal)
    (a1W1 : Mat 128 128) (a1b1 : Fin 128 → EReal) (a1W2 : Mat 128 128) (a1b2 : Fin 128 → EReal)
    (a2W1 : Mat 128 128) (a2b1 : Fin 128 → EReal) (a2W2 : Mat 128 128) (a2b2 : Fin 128 → EReal) (r : Fin N) (r' : Fin N')
    (hm : ∀ k : Fin 128, m (ix2 r k) = m' (ix2 r' k)) (ha : ∀ k : Fin 64, agg (ix2 r k) = agg' (ix2 r' k)) (j : Fin 128) :
    final m agg Wup Wji bji bW1 bb1 bW2 bb2 Wfin bfin a1W1 a1b1 a1W2 a1b2 a2W1 a2b1 a2W2 a2b2 (ix2 r j)
      = final m' agg' Wup Wji bji bW1 bb1 bW2 bb2 Wfin bfin a1W1 a1b1 a1W2 a1b2 a2W1 a2b1 a2W2 a2b2 (ix2 r' j) := by
  have h0 : ∀ k : Fin 128, hadd (dense m Wji bji) (act (mm agg Wup)) (ix2 r k)
      = hadd (dense m' Wji bji) (act (mm agg' Wup)) (ix2 r' k) := fun k => by
    show dense m Wji bji (ix2 r k) + silu (mm agg Wup (ix2 r k)) = dense m' Wji bji (ix2 r' k) + silu (mm agg' Wup (ix2 r' k))
    rw [dense_row m m' Wji bji r r' hm k, mm_row agg agg' Wup r r' ha k]
  have h1 := fun k => res_row _ _ bW1 bb1 bW2 bb2 r r' h0 k
  have h2 : ∀ k : Fin 128, hadd (dense (res (hadd (dense m Wji bji) (act (mm agg Wup))) bW1 bb1 bW2 bb2) Wfin bfin) m (ix2 r k)
      = hadd (dense (res (hadd (dense m' Wji bji) (act (mm agg' Wup))) bW1 bb1 bW2 bb2) Wfin bfin) m' (ix2 r' k) := fun k => by
    show dense _ Wfin bfin (ix2 r k) + m (ix2 r k) = dense _ Wfin bfin (ix2 r' k) + m' (ix2 r' k)
    rw [dense_row _ _ Wfin bfin r r' h1 k, hm k]
  have h3 := fun k => res_row _ _ a1W1 a1b1 a1W2 a1b2 r r' h2 k
  exact res_row _ _ a2W1 a2b1 a2W2 a2b2 r r' h3 j

end Cert.Spec

end
-- ==== Proof.Kernel0.lean ====
/-
  The first launch: what its output array holds after the run, as one function of the arrays the launch finds.
  Each grid point t reads rows 5000 t … 5000 t + 4999 of the edge embedding and of the radial basis, and the four
  weight arrays whole; its body computes the down-projected, radially modulated message of those rows; the output
  blocks tile the array. Because the message of a row depends on that row only, the array ends holding the message of
  every row.
-/
import proofs.«424410_j63531156242867_2_alg».proof.Proof.Gen.KernelIdeal.Frame
import proofs.«424410_j63531156242867_2_alg».proof.Proof.Spec
import Idealize.ShloMosaic.Lib.Pipeline.Value

set_option maxRecDepth 16384

noncomputable section

namespace Cert.KernelIdeal.Region0

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value on its loaded blocks is the message of the block's rows. -/
theorem pay_eq (v0 : Vec Ideal S5000x128 .f32) (v2 : Vec Ideal S128x128 .f32) (v5 : Vec Ideal S1x128 .f32)
    (v11 : Vec Ideal S5000x6 .f32) (v13 : Vec Ideal S6x128 .f32) (v18 : Vec Ideal S128x64 .f32) :
    k0_pay1 (F := Ideal) v0 v2 v5 v11 v13 v18 = Cert.Spec.mang v0 v11 v2 (Cert.Mlp.row v5) v13 v18 := by
  unfold k0_pay1
  simp only [shapeCast_self]
  rw [vec_mm dot_S5000x128_S128x128_S5000x128_1_0_0_1_n_n rfl, vec_addRow, vec_act, vec_mm dot_S5000x6_S6x128_S5000x128_1_0_0_1_n_n rfl,
    vec_mm dot_S5000x128_S128x64_S5000x64_1_0_0_1_n_n rfl, vec_act]
  rfl

/-- The printed index maps over the grid: the two row-blocked inputs and the output move with the point, the weights stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What the launch leaves in its output array: the message of every row of the arrays it finds. -/
abbrev G (c : Dev nD) : Mat 200000 64 :=
  Cert.Spec.mang (V c main_arg0) (V c main_arg1) (V c main_arg3) (Cert.Mlp.row (V c main_v2)) (V c main_v0) (V c main_arg7)

/-- WHAT POINT t WRITES BACK is block t of that array. -/
theorem flushed_eq (c : Dev nD) (t : Fin cfg0.N) :
    (dat0 (F := Ideal) V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz,
    View.ld_unit_zero (S := S5000x6) hz, View.ld_unit_zero (S := S6x128) hz, View.ld_unit_zero (S := S128x64) hz]
  rw [pay_eq]
  obtain ⟨e00, e01, e10, e11, e20, e21, e30, e31, e40, e41, e50, e51, e60, e61⟩ := idx_facts t
  have ht : t.val < 40 := t.isLt
  -- the weights' blocks are the whole arrays
  have h2 : (iblk0 V c 2 t : Mat 128 128) = V c main_arg3 := by
    funext y
    show V c main_arg3 (((cfg0.win 2).blk t).view.emb y) = V c main_arg3 y
    refine congrArg (V c main_arg3) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  have h3 : (iblk0 V c 3 t : Mat 1 128) = V c main_v2 := by
    funext y
    show V c main_v2 (((cfg0.win 3).blk t).view.emb y) = V c main_v2 y
    refine congrArg (V c main_v2) (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  have h4 : (iblk0 V c 4 t : Mat 6 128) = V c main_v0 := by
    funext y
    show V c main_v0 (((cfg0.win 4).blk t).view.emb y) = V c main_v0 y
    refine congrArg (V c main_v0) (funext fun a => Fin.ext ?_)
    match a with
    | ⟨0, _⟩ => show win0_4.index t (0 : Fin 2) * 6 + 1 * (y 0).val = (y 0).val; omega
    | ⟨1, _⟩ => show win0_4.index t (1 : Fin 2) * 128 + 1 * (y 1).val = (y 1).val; omega
  have h5 : (iblk0 V c 5 t : Mat 128 64) = V c main_arg7 := by
    funext y
    show V c main_arg7 (((cfg0.win 5).blk t).view.emb y) = V c main_arg7 y
    refine congrArg (V c main_arg7) (funext fun a => Fin.ext ?_)
    match a with
    | ⟨0, _⟩ => show win0_5.index t (0 : Fin 2) * 128 + 1 * (y 0).val = (y 0).val; omega
    | ⟨1, _⟩ => show win0_5.index t (1 : Fin 2) * 64 + 1 * (y 1).val = (y 1).val; omega
  funext j
  obtain ⟨p, q, rfl⟩ : ∃ (p : Fin 5000) (q : Fin 64), j = ix2 p q := ⟨j 0, j 1, eq_ix2 j⟩
  have hp : p.val < 5000 := p.isLt
  show Cert.Spec.mang (iblk0 V c 0 t : Mat 5000 128) (iblk0 V c 1 t : Mat 5000 6) (iblk0 V c 2 t : Mat 128 128)
      (Cert.Mlp.row (iblk0 V c 3 t : Mat 1 128)) (iblk0 V c 4 t : Mat 6 128) (iblk0 V c 5 t : Mat 128 64) (ix2 p q)
    = G V c (((cfg0.win 6).blk t).view.emb (ix2 p q))
  have hemb : ((cfg0.win 6).blk t).view.emb (ix2 p q) = ix2 (⟨t.val * 5000 + p.val, by omega⟩ : Fin 200000) q := by
    funext a; apply Fin.ext
    match a with
    | ⟨0, _⟩ => show win0_6.index t (0 : Fin 2) * 5000 + 1 * p.val = t.val * 5000 + p.val; omega
    | ⟨1, _⟩ => show win0_6.index t (1 : Fin 2) * 64 + 1 * q.val = q.val; omega
  rw [hemb, h2, h3, h4, h5]
  refine Cert.Spec.mang_row _ _ _ _ _ _ _ _ p ⟨t.val * 5000 + p.val, by omega⟩ (fun k => ?_) (fun k => ?_) q
  · show V c main_arg0 (((cfg0.win 0).blk t).view.emb (ix2 p k)) = V c main_arg0 (ix2 ⟨t.val * 5000 + p.val, by omega⟩ k)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg1 (((cfg0.win 1).blk t).view.emb (ix2 p k)) = V c main_arg1 (ix2 ⟨t.val * 5000 + p.val, by omega⟩ k)
    refine congrArg (V c main_arg1) (funext fun a => Fin.ext ?_)
    match a with
    | ⟨0, _⟩ => show win0_1.index t (0 : Fin 2) * 5000 + 1 * p.val = t.val * 5000 + p.val; omega
    | ⟨1, _⟩ => show win0_1.index t (1 : Fin 2) * 6 + 1 * k.val = k.val; omega

/-- An index of the array is in point t's block iff each coordinate is in the block's range on its axis. -/
theorem mem_blk (t : Fin cfg0.N) (i : S200000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v3).slice (win0_6.rect t)).set ↔ _
  rw [View.set_slice_whole, Rect.mem_set_unit]
  exact Iff.rfl

/-- Row r lies in the block of point r / 5000. -/
theorem cover (i : S200000x64.Idx) : ∃ t : Fin cfg0.N, (cfg0.win 6).flush t = true ∧ i ∈ ((cfg0.win 6).blk t).view.set := by
  have hi0 : (i 0).val < 200000 := (i 0).isLt
  have hi1 : (i 1).val < 64 := (i 1).isLt
  have hlt : (i 0).val / 5000 < 40 := by omega
  obtain ⟨-, -, -, -, -, -, -, -, -, -, -, -, e60, e61⟩ := idx_facts ⟨(i 0).val / 5000, hlt⟩
  refine ⟨⟨(i 0).val / 5000, hlt⟩, flush0_6 _, ?_⟩
  rw [mem_blk]
  intro a
  match a with
  | ⟨0, _⟩ =>
    show win0_6.index ⟨(i 0).val / 5000, hlt⟩ (0 : Fin 2) * 5000 ≤ (i 0).val ∧ (i 0).val < win0_6.index ⟨(i 0).val / 5000, hlt⟩ (0 : Fin 2) * 5000 + 5000
    rw [e60]; show (i 0).val / 5000 * 5000 ≤ (i 0).val ∧ (i 0).val < (i 0).val / 5000 * 5000 + 5000; omega
  | ⟨1, _⟩ =>
    show win0_6.index ⟨(i 0).val / 5000, hlt⟩ (1 : Fin 2) * 64 ≤ (i 1).val ∧ (i 1).val < win0_6.index ⟨(i 0).val / 5000, hlt⟩ (1 : Fin 2) * 64 + 64
    rw [e61]; omega

/-- THE ARRAY after the launch. -/
theorem final (c : Dev nD) : (dat0 (F := Ideal) V c).arrAt 6 cfg0.N = G V c :=
  (dat0 V c).arrAt_eq_of_cover 6 (G V c) (fun t _ => flushed_eq V c t) cover

end Cert.KernelIdeal.Region0

end
-- ==== Proof.Kernel1.lean ====
/-
  The second launch: each grid point t reads rows 6400 t … 6400 t + 6399 of the spherical basis and the folded
  projection whole, and writes the product of those rows; the output blocks tile the array, so it ends holding the
  product of the two arrays the launch finds.
-/
import proofs.«424410_j63531156242867_2_alg».proof.Proof.Gen.KernelIdeal.Frame
import proofs.«424410_j63531156242867_2_alg».proof.Proof.Spec
import Idealize.ShloMosaic.Lib.Pipeline.Value

set_option maxRecDepth 16384

noncomputable section

namespace Cert.KernelIdeal.Region1

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value on its loaded blocks is the product of the block's rows with the projection. -/
theorem pay_eq (v0 : Vec Ideal S6400x42 .f32) (v2 : Vec Ideal S42x64 .f32) :
    (k1_pay1 (F := Ideal) v0 v2 : Mat 6400 64) = mm (v0 : Mat 6400 42) (v2 : Mat 42 64) := by
  unfold k1_pay1
  simp only [shapeCast_self]
  rw [vec_mm dot_S6400x42_S42x64_S6400x64_1_0_0_1_n_n rfl]
  rfl

/-- The printed index maps over the grid. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What the launch leaves in its output array. -/
abbrev G (c : Dev nD) : Mat 1600000 64 := mm (V c main_arg2 : Mat 1600000 42) (V c main_v1 : Mat 42 64)

/-- WHAT POINT t WRITES BACK is block t of that array. -/
theorem flushed_eq (c : Dev nD) (t : Fin cfg1.N) :
    (dat1 (F := Ideal) V c).flushed 2 t = ((cfg1.win 2).blk t).view.read (Elt Ideal) (G V c) := by
  show (cfg1.win 2).cut (grid1.coords t) ((dat1 V c).after 2 t) = _
  rw [after1_2]
  unfold out1_2
  rw [View.canon_unit_zero hz]
  simp only [View.ld_unit_zero (S := S6400x42) hz, View.ld_unit_zero (S := S42x64) hz]
  obtain ⟨e00, e01, e10, e11, e20, e21⟩ := idx_facts t
  have ht : t.val < 250 := t.isLt
  have h1 : (iblk1 V c 1 t : Mat 42 64) = V c main_v1 := by
    funext y
    show V c main_v1 (((cfg1.win 1).blk t).view.emb y) = V c main_v1 y
    refine congrArg (V c main_v1) (funext fun a => Fin.ext ?_)
    match a with
    | ⟨0, _⟩ => show win1_1.index t (0 : Fin 2) * 42 + 1 * (y 0).val = (y 0).val; omega
    | ⟨1, _⟩ => show win1_1.index t (1 : Fin 2) * 64 + 1 * (y 1).val = (y 1).val; omega
  funext j
  obtain ⟨p, q, rfl⟩ : ∃ (p : Fin 6400) (q : Fin 64), j = ix2 p q := ⟨j 0, j 1, eq_ix2 j⟩
  have hp : p.val < 6400 := p.isLt
  show (k1_pay1 (F := Ideal) (iblk1 V c 0 t) (iblk1 V c 1 t) : Mat 6400 64) (ix2 p q)
    = G V c (((cfg1.win 2).blk t).view.emb (ix2 p q))
  rw [pay_eq]
  have hemb : ((cfg1.win 2).blk t).view.emb (ix2 p q) = ix2 (⟨t.val * 6400 + p.val, by omega⟩ : Fin 1600000) q := by
    funext a; apply Fin.ext
    match a with
    | ⟨0, _⟩ => show win1_2.index t (0 : Fin 2) * 6400 + 1 * p.val = t.val * 6400 + p.val; omega
    | ⟨1, _⟩ => show win1_2.index t (1 : Fin 2) * 64 + 1 * q.val = q.val; omega
  rw [hemb, h1]
  refine mm_row _ _ _ p ⟨t.val * 6400 + p.val, by omega⟩ (fun k => ?_) q
  show V c main_arg2 (((cfg1.win 0).blk t).view.emb (ix2 p k)) = V c main_arg2 (ix2 ⟨t.val * 6400 + p.val, by omega⟩ k)
  refine congrArg (V c main_arg2) (funext fun a => Fin.ext ?_)
  match a with
  | ⟨0, _⟩ => show win1_0.index t (0 : Fin 2) * 6400 + 1 * p.val = t.val * 6400 + p.val; omega
  | ⟨1, _⟩ => show win1_0.index t (1 : Fin 2) * 42 + 1 * k.val = k.val; omega

/-- An index of the array is in point t's block iff each coordinate is in the block's range on its axis. -/
theorem mem_blk (t : Fin cfg1.N) (i : S1600000x64.Idx) :
    i ∈ ((cfg1.win 2).blk t).view.set ↔ ∀ a : Fin 2, win1_2.index t a * S6400x64.size a ≤ (i a).val ∧ (i a).val < win1_2.index t a * S6400x64.size a + S6400x64.size a := by
  show i ∈ ((View.whole main_v4).slice (win1_2.rect t)).set ↔ _
  rw [View.set_slice_whole, Rect.mem_set_unit]
  exact Iff.rfl

/-- Row r lies in the block of point r / 6400. -/
theorem cover (i : S1600000x64.Idx) : ∃ t : Fin cfg1.N, (cfg1.win 2).flush t = true ∧ i ∈ ((cfg1.win 2).blk t).view.set := by
  have hi0 : (i 0).val < 1600000 := (i 0).isLt
  have hi1 : (i 1).val < 64 := (i 1).isLt
  have hlt : (i 0).val / 6400 < 250 := by omega
  obtain ⟨-, -, -, -, e20, e21⟩ := idx_facts ⟨(i 0).val / 6400, hlt⟩
  refine ⟨⟨(i 0).val / 6400, hlt⟩, flush1_2 _, ?_⟩
  rw [mem_blk]
  intro a
  match a with
  | ⟨0, _⟩ =>
    show win1_2.index ⟨(i 0).val / 6400, hlt⟩ (0 : Fin 2) * 6400 ≤ (i 0).val ∧ (i 0).val < win1_2.index ⟨(i 0).val / 6400, hlt⟩ (0 : Fin 2) * 6400 + 6400
    rw [e20]; show (i 0).val / 6400 * 6400 ≤ (i 0).val ∧ (i 0).val < (i 0).val / 6400 * 6400 + 6400; omega
  | ⟨1, _⟩ =>
    show win1_2.index ⟨(i 0).val / 6400, hlt⟩ (1 : Fin 2) * 64 ≤ (i 1).val ∧ (i 1).val < win1_2.index ⟨(i 0).val / 6400, hlt⟩ (1 : Fin 2) * 64 + 64
    rw [e21]; omega

/-- THE ARRAY after the launch. -/
theorem final (c : Dev nD) : (dat1 (F := Ideal) V c).arrAt 2 cfg1.N = G V c :=
  (dat1 V c).arrAt_eq_of_cover 2 (G V c) (fun t _ => flushed_eq V c t) cover

end Cert.KernelIdeal.Region1

end
-- ==== Proof.Kernel2.lean ====
/-
  The third launch: each grid point t reads rows 4000 t … 4000 t + 3999 of the edge embedding and of the aggregated
  triplet messages, and the seventeen weight and bias arrays whole; its body computes the combine and the residual
  stack on those rows; the output blocks tile the array. The value of a row depends on that row only, so the array ends
  holding the stack's value on every row.
-/
import proofs.«424410_j63531156242867_2_alg».proof.Proof.Gen.KernelIdeal.Frame
import proofs.«424410_j63531156242867_2_alg».proof.Proof.Spec
import Idealize.ShloMosaic.Lib.Pipeline.Value

set_option maxRecDepth 16384

noncomputable section

namespace Cert.KernelIdeal.Region2

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The body's value, piece by piece -/

/-- The combine: a dense layer of the embedding plus the activated up-projection of the aggregate. -/
theorem pay2_eq (v0 : Vec Ideal S4000x128 .f32) (v1 : Vec Ideal S4000x64 .f32) (v3 : Vec Ideal S64x128 .f32)
    (v9 : Vec Ideal S128x128 .f32) (v13 : Vec Ideal S1x128 .f32) :
    (k2_pay2 (F := Ideal) v0 v1 v3 v9 v13 : Mat 4000 128)
      = hadd (dense (v0 : Mat 4000 128) (v9 : Mat 128 128) (Cert.Mlp.row v13)) (act (mm (v1 : Mat 4000 64) (v3 : Mat 64 128))) := by
  unfold k2_pay2
  simp only [shapeCast_self, vec_mm dot_S4000x64_S64x128_S4000x128_1_0_0_1_n_n rfl,
    vec_mm dot_S4000x128_S128x128_S4000x128_1_0_0_1_n_n rfl, vec_addRow, vec_act]
  rfl

/-- The first residual layer's inner dense layer and second product (its bias is added by the next piece). -/
theorem pay3_eq (v0 : Vec Ideal S4000x128 .f32) (v1 : Vec Ideal S4000x64 .f32) (v3 : Vec Ideal S64x128 .f32)
    (v9 : Vec Ideal S128x128 .f32) (v13 : Vec Ideal S1x128 .f32) (v20 : Vec Ideal S128x128 .f32) (v24 : Vec Ideal S1x128 .f32)
    (v30 : Vec Ideal S128x128 .f32) :
    (k2_pay3 (F := Ideal) v0 v1 v3 v9 v13 v20 v24 v30 : Mat 4000 128)
      = mm (dense (k2_pay2 (F := Ideal) v0 v1 v3 v9 v13 : Mat 4000 128) (v20 : Mat 128 128) (Cert.Mlp.row v24)) (v30 : Mat 128 128) := by
  unfold k2_pay3
  simp only [shapeCast_self, vec_mm dot_S4000x128_S128x128_S4000x128_1_0_0_1_n_n rfl, vec_addRow, vec_act]
  rfl

/-- A bias row broadcast down the block. -/
theorem pay4_eq (v34 : Vec Ideal S1x128 .f32) :
    k2_pay4 (F := Ideal) v34 = broadcastTo S4000x128 v34 broadcasts_S1x128_S4000x128 := by
  unfold k2_pay4
  simp only [shapeCast_self]

/-- The first residual layer closed, the dense layer with the skip connection, and the second residual layer. -/
theorem pay5_eq (v0 : Vec Ideal S4000x128 .f32) (v19 v33 : FVec Ideal S4000x128 .f32) (b2 : Vec Ideal S1x128 .f32)
    (v41 : Vec Ideal S128x128 .f32) (v45 : Vec Ideal S1x128 .f32) (v52 : Vec Ideal S128x128 .f32) (v56 : Vec Ideal S1x128 .f32)
    (v62 : Vec Ideal S128x128 .f32) (v66 : Vec Ideal S1x128 .f32) :
    (k2_pay5 (F := Ideal) v0 v19 v33 (broadcastTo S4000x128 b2 broadcasts_S1x128_S4000x128) v41 v45 v52 v56 v62 v66 : Mat 4000 128)
      = res (hadd (dense (hadd (v19 : Mat 4000 128) (act (addRow (v33 : Mat 4000 128) (Cert.Mlp.row b2)))) (v41 : Mat 128 128) (Cert.Mlp.row v45))
          (v0 : Mat 4000 128)) (v52 : Mat 128 128) (Cert.Mlp.row v56) (v62 : Mat 128 128) (Cert.Mlp.row v66) := by
  unfold k2_pay5
  simp only [shapeCast_self, vec_mm dot_S4000x128_S128x128_S4000x128_1_0_0_1_n_n rfl, vec_addRow, vec_act]
  rfl

/-- The last residual layer's first product. -/
theorem pay6_eq (v0 : Vec Ideal S4000x128 .f32) (v19 v33 v36 : FVec Ideal S4000x128 .f32)
    (v41 : Vec Ideal S128x128 .f32) (v45 : Vec Ideal S1x128 .f32) (v52 : Vec Ideal S128x128 .f32) (v56 : Vec Ideal S1x128 .f32)
    (v62 : Vec Ideal S128x128 .f32) (v66 : Vec Ideal S1x128 .f32) (v73 : Vec Ideal S128x128 .f32) :
    (k2_pay6 (F := Ideal) v0 v19 v33 v36 v41 v45 v52 v56 v62 v66 v73 : Mat 4000 128)
      = mm (k2_pay5 (F := Ideal) v0 v19 v33 v36 v41 v45 v52 v56 v62 v66 : Mat 4000 128) (v73 : Mat 128 128) := by
  unfold k2_pay6
  simp only [vec_mm dot_S4000x128_S128x128_S4000x128_1_0_0_1_n_n rfl]
  rfl

/-- The last residual layer closed. -/
theorem pay1_eq (v72 v76 : FVec Ideal S4000x128 .f32) (v77 : Vec Ideal S1x128 .f32) (v83 : Vec Ideal S128x128 .f32)
    (v87 : Vec Ideal S1x128 .f32) :
    (k2_pay1 (F := Ideal) v72 v76 v77 v83 v87 : Mat 4000 128)
      = hadd (v72 : Mat 4000 128) (dense (act (addRow (v76 : Mat 4000 128) (Cert.Mlp.row v77))) (v83 : Mat 128 128) (Cert.Mlp.row v87)) := by
  unfold k2_pay1
  simp only [shapeCast_self, vec_mm dot_S4000x128_S128x128_S4000x128_1_0_0_1_n_n rfl, vec_addRow, vec_act]
  rfl

/-- The body's value on its loaded blocks is the stack's value on the block's rows. -/
theorem pay_eq (x0 : Vec Ideal S4000x128 .f32) (x1 : Vec Ideal S4000x64 .f32) (x2 : Vec Ideal S64x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) (x9 : Vec Ideal S128x128 .f32) (x10 : Vec Ideal S1x128 .f32) (x11 : Vec Ideal S128x128 .f32) (x12 : Vec Ideal S1x128 .f32) (x13 : Vec Ideal S128x128 .f32) (x14 : Vec Ideal S1x128 .f32) (x15 : Vec Ideal S128x128 .f32) (x16 : Vec Ideal S1x128 .f32) (x17 : Vec Ideal S128x128 .f32) (x18 : Vec Ideal S1x128 .f32) :
    (k2_pay1 (F := Ideal)
        (k2_pay5 x0 (k2_pay2 x0 x1 x2 x3 x4) (k2_pay3 x0 x1 x2 x3 x4 x5 x6 x7) (k2_pay4 x8) x9 x10 x11 x12 x13 x14)
        (k2_pay6 x0 (k2_pay2 x0 x1 x2 x3 x4) (k2_pay3 x0 x1 x2 x3 x4 x5 x6 x7) (k2_pay4 x8) x9 x10 x11 x12 x13 x14 x15)
        x16 x17 x18 : Mat 4000 128)
      = Cert.Spec.final x0 x1 x2 x3 (Cert.Mlp.row x4) x5 (Cert.Mlp.row x6) x7 (Cert.Mlp.row x8) x9 (Cert.Mlp.row x10)
          x11 (Cert.Mlp.row x12) x13 (Cert.Mlp.row x14) x15 (Cert.Mlp.row x16) x17 (Cert.Mlp.row x18) := by
  rw [pay1_eq, pay6_eq, pay4_eq, pay5_eq, pay3_eq, pay2_eq]
  rfl

/-! ## The launch -/

/-- The printed index maps over the grid: the two row-blocked inputs and the output move with the point, the weights stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = 0 ∧ win2_12.index t (1 : Fin 2) = 0
    ∧ win2_13.index t (0 : Fin 2) = 0 ∧ win2_13.index t (1 : Fin 2) = 0
    ∧ win2_14.index t (0 : Fin 2) = 0 ∧ win2_14.index t (1 : Fin 2) = 0
    ∧ win2_15.index t (0 : Fin 2) = 0 ∧ win2_15.index t (1 : Fin 2) = 0
    ∧ win2_16.index t (0 : Fin 2) = 0 ∧ win2_16.index t (1 : Fin 2) = 0
    ∧ win2_17.index t (0 : Fin 2) = 0 ∧ win2_17.index t (1 : Fin 2) = 0
    ∧ win2_18.index t (0 : Fin 2) = 0 ∧ win2_18.index t (1 : Fin 2) = 0
    ∧ win2_19.index t (0 : Fin 2) = t.val ∧ win2_19.index t (1 : Fin 2) = 0 :=
  (by decide +kernel : ∀ t : Fin grid2.N, _)

/-! The weights' and biases' blocks are the whole arrays: their index maps are constant and a block is the array. -/

theorem blk2 (c : Dev nD) (t : Fin cfg2.N) : (iblk2 V c 2 t : Mat 64 128) = V c main_arg10 := by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b, e16a, e16b, e17a, e17b, e18a, e18b, e19a, e19b⟩ := idx_facts t
  funext y
  show V c main_arg10 (((cfg2.win 2).blk t).view.emb y) = V c main_arg10 y
  refine congrArg (V c main_arg10) (funext fun a => Fin.ext ?_)
  match a with
  | ⟨0, _⟩ => show win2_2.index t (0 : Fin 2) * 64 + 1 * (y 0).val = (y 0).val; omega
  | ⟨1, _⟩ => show win2_2.index t (1 : Fin 2) * 128 + 1 * (y 1).val = (y 1).val; omega

theorem blk3 (c : Dev nD) (t : Fin cfg2.N) : (iblk2 V c 3 t : Mat 128 128) = V c main_arg11 := by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b, e16a, e16b, e17a, e17b, e18a, e18b, e19a, e19b⟩ := idx_facts t
  funext y
  show V c main_arg11 (((cfg2.win 3).blk t).view.emb y) = V c main_arg11 y
  refine congrArg (V c main_arg11) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

theorem blk4 (c : Dev nD) (t : Fin cfg2.N) : (iblk2 V c 4 t : Mat 1 128) = V c main_v11 := by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b, e16a, e16b, e17a, e17b, e18a, e18b, e19a, e19b⟩ := idx_facts t
  funext y
  show V c main_v11 (((cfg2.win 4).blk t).view.emb y) = V c main_v11 y
  refine congrArg (V c main_v11) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

theorem blk5 (c : Dev nD) (t : Fin cfg2.N) : (iblk2 V c 5 t : Mat 128 128) = V c main_arg13 := by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b, e16a, e16b, e17a, e17b, e18a, e18b, e19a, e19b⟩ := idx_facts t
  funext y
  show V c main_arg13 (((cfg2.win 5).blk t).view.emb y) = V c main_arg13 y
  refine congrArg (V c main_arg13) (funext fun a => Fin.ext ?_)
  match a with
  | ⟨0, _⟩ => show win2_5.index t (0 : Fin 2) * 128 + 1 * (y 0).val = (y 0).val; omega
  | ⟨1, _⟩ => show win2_5.index t (1 : Fin 2) * 128 + 1 * (y 1).val = (y 1).val; omega

theorem blk6 (c : Dev nD) (t : Fin cfg2.N) : (iblk2 V c 6 t : Mat 1 128) = V c main_v12 := by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b, e16a, e16b, e17a, e17b, e18a, e18b, e19a, e19b⟩ := idx_facts t
  funext y
  show V c main_v12 (((cfg2.win 6).blk t).view.emb y) = V c main_v12 y
  refine congrArg (V c main_v12) (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega

theorem blk7 (c : Dev nD) (t : Fin cfg2.N) : (iblk2 V c 7 t : Mat 128 128) = V c main_arg15 := by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b, e16a, e16b, e17a, e17b, e18a, e18b, e19a, e19b⟩ := idx_facts t
  funext y
  show V c main_arg15 (((cfg2.win 7).blk t).view.emb y) = V c main_arg15 y
  refine congrArg (V c main_arg15) (funext fun a => Fin.ext ?_)
  match a with
  | ⟨0, _⟩ => show win2_7.index t (0 : Fin 2) * 128 + 1 * (y 0).val = (y 0).val; omega
  | ⟨1, _⟩ => show win2_7.index t (1 : Fin 2) * 128 + 1 * (y 1).val = (y 1).val; omega

theorem blk8 (c : Dev nD) (t : Fin cfg2.N) : (iblk2 V c 8 t : Mat 1 128) = V c main_v13 := by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b, e16a, e16b, e17a, e17b, e18a, e18b, e19a, e19b⟩ := idx_facts t
  funext y
  show V c main_v13 (((cfg2.win 8).blk t).view.emb y) = V c main_v13 y
  refine congrArg (V c main_v13) (funext fun a => Fin.ext ?_)
  match a with
  | ⟨0, _⟩ => show win2_8.index t (0 : Fin 2) * 1 + 1 * (y 0).val = (y 0).val; omega
  | ⟨1, _⟩ => show win2_8.index t (1 : Fin 2) * 128 + 1 * (y 1).val = (y 1).val; omega

theorem blk9 (c : Dev nD) (t : Fin cfg2.N) : (iblk2 V c 9 t : Mat 128 128) = V c main_arg17 := by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b, e16a, e16b, e17a, e17b, e18a, e18b, e19a, e19b⟩ := idx_facts t
  funext y
  show V c main_arg17 (((cfg2.win 9).blk t).view.emb y) = V c main_arg17 y
  refine congrArg (V c main_arg17) (funext fun a => Fin.ext ?_)
  match a with
  | ⟨0, _⟩ => show win2_9.index t (0 : Fin 2) * 128 + 1 * (y 0).val = (y 0).val; omega
  | ⟨1, _⟩ => show win2_9.index t (1 : Fin 2) * 128 + 1 * (y 1).val = (y 1).val; omega

theorem blk10 (c : Dev nD) (t : Fin cfg2.N) : (iblk2 V c 10 t : Mat 1 128) = V c main_v14 := by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b, e16a, e16b, e17a, e17b, e18a, e18b, e19a, e19b⟩ := idx_facts t
  funext y
  show V c main_v14 (((cfg2.win 10).blk t).view.emb y) = V c main_v14 y
  refine congrArg (V c main_v14) (funext fun a => Fin.ext ?_)
  match a with
  | ⟨0, _⟩ => show win2_10.index t (0 : Fin 2) * 1 + 1 * (y 0).val = (y 0).val; omega
  | ⟨1, _⟩ => show win2_10.index t (1 : Fin 2) * 128 + 1 * (y 1).val = (y 1).val; omega

theorem blk11 (c : Dev nD) (t : Fin cfg2.N) : (iblk2 V c 11 t : Mat 128 128) = V c main_arg19 := by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b, e16a, e16b, e17a, e17b, e18a, e18b, e19a, e19b⟩ := idx_facts t
  funext y
  show V c main_arg19 (((cfg2.win 11).blk t).view.emb y) = V c main_arg19 y
  refine congrArg (V c main_arg19) (funext fun a => Fin.ext ?_)
  match a with
  | ⟨0, _⟩ => show win2_11.index t (0 : Fin 2) * 128 + 1 * (y 0).val = (y 0).val; omega
  | ⟨1, _⟩ => show win2_11.index t (1 : Fin 2) * 128 + 1 * (y 1).val = (y 1).val; omega

theorem blk12 (c : Dev nD) (t : Fin cfg2.N) : (iblk2 V c 12 t : Mat 1 128) = V c main_v15 := by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b, e16a, e16b, e17a, e17b, e18a, e18b, e19a, e19b⟩ := idx_facts t
  funext y
  show V c main_v15 (((cfg2.win 12).blk t).view.emb y) = V c main_v15 y
  refine congrArg (V c main_v15) (funext fun a => Fin.ext ?_)
  match a with
  | ⟨0, _⟩ => show win2_12.index t (0 : Fin 2) * 1 + 1 * (y 0).val = (y 0).val; omega
  | ⟨1, _⟩ => show win2_12.index t (1 : Fin 2) * 128 + 1 * (y 1).val = (y 1).val; omega

theorem blk13 (c : Dev nD) (t : Fin cfg2.N) : (iblk2 V c 13 t : Mat 128 128) = V c main_arg21 := by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b, e16a, e16b, e17a, e17b, e18a, e18b, e19a, e19b⟩ := idx_facts t
  funext y
  show V c main_arg21 (((cfg2.win 13).blk t).view.emb y) = V c main_arg21 y
  refine congrArg (V c main_arg21) (funext fun a => Fin.ext ?_)
  match a with
  | ⟨0, _⟩ => show win2_13.index t (0 : Fin 2) * 128 + 1 * (y 0).val = (y 0).val; omega
  | ⟨1, _⟩ => show win2_13.index t (1 : Fin 2) * 128 + 1 * (y 1).val = (y 1).val; omega

theorem blk14 (c : Dev nD) (t : Fin cfg2.N) : (iblk2 V c 14 t : Mat 1 128) = V c main_v16 := by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b, e16a, e16b, e17a, e17b, e18a, e18b, e19a, e19b⟩ := idx_facts t
  funext y
  show V c main_v16 (((cfg2.win 14).blk t).view.emb y) = V c main_v16 y
  refine congrArg (V c main_v16) (funext fun a => Fin.ext ?_)
  match a with
  | ⟨0, _⟩ => show win2_14.index t (0 : Fin 2) * 1 + 1 * (y 0).val = (y 0).val; omega
  | ⟨1, _⟩ => show win2_14.index t (1 : Fin 2) * 128 + 1 * (y 1).val = (y 1).val; omega

theorem blk15 (c : Dev nD) (t : Fin cfg2.N) : (iblk2 V c 15 t : Mat 128 128) = V c main_arg23 := by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b, e16a, e16b, e17a, e17b, e18a, e18b, e19a, e19b⟩ := idx_facts t
  funext y
  show V c main_arg23 (((cfg2.win 15).blk t).view.emb y) = V c main_arg23 y
  refine congrArg (V c main_arg23) (funext fun a => Fin.ext ?_)
  match a with
  | ⟨0, _⟩ => show win2_15.index t (0 : Fin 2) * 128 + 1 * (y 0).val = (y 0).val; omega
  | ⟨1, _⟩ => show win2_15.index t (1 : Fin 2) * 128 + 1 * (y 1).val = (y 1).val; omega

theorem blk16 (c : Dev nD) (t : Fin cfg2.N) : (iblk2 V c 16 t : Mat 1 128) = V c main_v17 := by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b, e16a, e16b, e17a, e17b, e18a, e18b, e19a, e19b⟩ := idx_facts t
  funext y
  show V c main_v17 (((cfg2.win 16).blk t).view.emb y) = V c main_v17 y
  refine congrArg (V c main_v17) (funext fun a => Fin.ext ?_)
  match a with
  | ⟨0, _⟩ => show win2_16.index t (0 : Fin 2) * 1 + 1 * (y 0).val = (y 0).val; omega
  | ⟨1, _⟩ => show win2_16.index t (1 : Fin 2) * 128 + 1 * (y 1).val = (y 1).val; omega

theorem blk17 (c : Dev nD) (t : Fin cfg2.N) : (iblk2 V c 17 t : Mat 128 128) = V c main_arg25 := by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b, e16a, e16b, e17a, e17b, e18a, e18b, e19a, e19b⟩ := idx_facts t
  funext y
  show V c main_arg25 (((cfg2.win 17).blk t).view.emb y) = V c main_arg25 y
  refine congrArg (V c main_arg25) (funext fun a => Fin.ext ?_)
  match a with
  | ⟨0, _⟩ => show win2_17.index t (0 : Fin 2) * 128 + 1 * (y 0).val = (y 0).val; omega
  | ⟨1, _⟩ => show win2_17.index t (1 : Fin 2) * 128 + 1 * (y 1).val = (y 1).val; omega

theorem blk18 (c : Dev nD) (t : Fin cfg2.N) : (iblk2 V c 18 t : Mat 1 128) = V c main_v18 := by
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b, e16a, e16b, e17a, e17b, e18a, e18b, e19a, e19b⟩ := idx_facts t
  funext y
  show V c main_v18 (((cfg2.win 18).blk t).view.emb y) = V c main_v18 y
  refine congrArg (V c main_v18) (funext fun a => Fin.ext ?_)
  match a with
  | ⟨0, _⟩ => show win2_18.index t (0 : Fin 2) * 1 + 1 * (y 0).val = (y 0).val; omega
  | ⟨1, _⟩ => show win2_18.index t (1 : Fin 2) * 128 + 1 * (y 1).val = (y 1).val; omega

/-- What the launch leaves in its output array: the stack's value on every row of the arrays it finds. -/
abbrev G (c : Dev nD) : Mat 200000 128 :=
  Cert.Spec.final (V c main_arg0) (V c main_v10) (V c main_arg10) (V c main_arg11) (Cert.Mlp.row (V c main_v11))
    (V c main_arg13) (Cert.Mlp.row (V c main_v12)) (V c main_arg15) (Cert.Mlp.row (V c main_v13))
    (V c main_arg17) (Cert.Mlp.row (V c main_v14))
    (V c main_arg19) (Cert.Mlp.row (V c main_v15)) (V c main_arg21) (Cert.Mlp.row (V c main_v16))
    (V c main_arg23) (Cert.Mlp.row (V c main_v17)) (V c main_arg25) (Cert.Mlp.row (V c main_v18))

/-- WHAT POINT t WRITES BACK is block t of that array. -/
theorem flushed_eq (c : Dev nD) (t : Fin cfg2.N) :
    (dat2 (F := Ideal) V c).flushed 19 t = ((cfg2.win 19).blk t).view.read (Elt Ideal) (G V c) := by
  show (cfg2.win 19).cut (grid2.coords t) ((dat2 V c).after 19 t) = _
  rw [after2_19]
  unfold out2_19
  rw [View.canon_unit_zero hz]
  simp only [View.ld_unit_zero (S := S4000x128) hz, View.ld_unit_zero (S := S4000x64) hz, View.ld_unit_zero (S := S64x128) hz, View.ld_unit_zero (S := S128x128) hz, View.ld_unit_zero (S := S1x128) hz]
  obtain ⟨e0a, e0b, e1a, e1b, e2a, e2b, e3a, e3b, e4a, e4b, e5a, e5b, e6a, e6b, e7a, e7b, e8a, e8b, e9a, e9b, e10a, e10b, e11a, e11b, e12a, e12b, e13a, e13b, e14a, e14b, e15a, e15b, e16a, e16b, e17a, e17b, e18a, e18b, e19a, e19b⟩ := idx_facts t
  have ht : t.val < 50 := t.isLt
  funext j
  obtain ⟨p, q, rfl⟩ : ∃ (p : Fin 4000) (q : Fin 128), j = ix2 p q := ⟨j 0, j 1, eq_ix2 j⟩
  have hp : p.val < 4000 := p.isLt
  show (k2_pay1 (F := Ideal)
        (k2_pay5 (iblk2 V c 0 t) (k2_pay2 (iblk2 V c 0 t) (iblk2 V c 1 t) (iblk2 V c 2 t) (iblk2 V c 3 t) (iblk2 V c 4 t))
          (k2_pay3 (iblk2 V c 0 t) (iblk2 V c 1 t) (iblk2 V c 2 t) (iblk2 V c 3 t) (iblk2 V c 4 t) (iblk2 V c 5 t) (iblk2 V c 6 t) (iblk2 V c 7 t))
          (k2_pay4 (iblk2 V c 8 t)) (iblk2 V c 9 t) (iblk2 V c 10 t) (iblk2 V c 11 t) (iblk2 V c 12 t) (iblk2 V c 13 t) (iblk2 V c 14 t))
        (k2_pay6 (iblk2 V c 0 t) (k2_pay2 (iblk2 V c 0 t) (iblk2 V c 1 t) (iblk2 V c 2 t) (iblk2 V c 3 t) (iblk2 V c 4 t))
          (k2_pay3 (iblk2 V c 0 t) (iblk2 V c 1 t) (iblk2 V c 2 t) (iblk2 V c 3 t) (iblk2 V c 4 t) (iblk2 V c 5 t) (iblk2 V c 6 t) (iblk2 V c 7 t))
          (k2_pay4 (iblk2 V c 8 t)) (iblk2 V c 9 t) (iblk2 V c 10 t) (iblk2 V c 11 t) (iblk2 V c 12 t) (iblk2 V c 13 t) (iblk2 V c 14 t) (iblk2 V c 15 t))
        (iblk2 V c 16 t) (iblk2 V c 17 t) (iblk2 V c 18 t) : Mat 4000 128) (ix2 p q)
    = G V c (((cfg2.win 19).blk t).view.emb (ix2 p q))
  rw [pay_eq]
  have hemb : ((cfg2.win 19).blk t).view.emb (ix2 p q) = ix2 (⟨t.val * 4000 + p.val, by omega⟩ : Fin 200000) q := by
    funext a; apply Fin.ext
    match a with
    | ⟨0, _⟩ => show win2_19.index t (0 : Fin 2) * 4000 + 1 * p.val = t.val * 4000 + p.val; omega
    | ⟨1, _⟩ => show win2_19.index t (1 : Fin 2) * 128 + 1 * q.val = q.val; omega
  rw [hemb, blk2 V c t, blk3 V c t, blk4 V c t, blk5 V c t, blk6 V c t, blk7 V c t, blk8 V c t, blk9 V c t, blk10 V c t, blk11 V c t, blk12 V c t, blk13 V c t, blk14 V c t, blk15 V c t, blk16 V c t, blk17 V c t, blk18 V c t]
  refine Cert.Spec.final_row _ _ _ _ _ _ _ _ _ _ _ _ _ _ _ _ _ _ _ _ _ p ⟨t.val * 4000 + p.val, by omega⟩ (fun k => ?_) (fun k => ?_) q
  · show V c main_arg0 (((cfg2.win 0).blk t).view.emb (ix2 p k)) = V c main_arg0 (ix2 ⟨t.val * 4000 + p.val, by omega⟩ k)
    refine congrArg (V c main_arg0) (funext fun a => Fin.ext ?_)
    match a with
    | ⟨0, _⟩ => show win2_0.index t (0 : Fin 2) * 4000 + 1 * p.val = t.val * 4000 + p.val; omega
    | ⟨1, _⟩ => show win2_0.index t (1 : Fin 2) * 128 + 1 * k.val = k.val; omega
  · show V c main_v10 (((cfg2.win 1).blk t).view.emb (ix2 p k)) = V c main_v10 (ix2 ⟨t.val * 4000 + p.val, by omega⟩ k)
    refine congrArg (V c main_v10) (funext fun a => Fin.ext ?_)
    match a with
    | ⟨0, _⟩ => show win2_1.index t (0 : Fin 2) * 4000 + 1 * p.val = t.val * 4000 + p.val; omega
    | ⟨1, _⟩ => show win2_1.index t (1 : Fin 2) * 64 + 1 * k.val = k.val; omega

/-- An index of the array is in point t's block iff each coordinate is in the block's range on its axis. -/
theorem mem_blk (t : Fin cfg2.N) (i : S200000x128.Idx) :
    i ∈ ((cfg2.win 19).blk t).view.set ↔ ∀ a : Fin 2, win2_19.index t a * S4000x128.size a ≤ (i a).val ∧ (i a).val < win2_19.index t a * S4000x128.size a + S4000x128.size a := by
  show i ∈ ((View.whole main_v19).slice (win2_19.rect t)).set ↔ _
  rw [View.set_slice_whole, Rect.mem_set_unit]
  exact Iff.rfl

/-- Row r lies in the block of point r / 4000. -/
theorem cover (i : S200000x128.Idx) : ∃ t : Fin cfg2.N, (cfg2.win 19).flush t = true ∧ i ∈ ((cfg2.win 19).blk t).view.set := by
  have hi0 : (i 0).val < 200000 := (i 0).isLt
  have hi1 : (i 1).val < 128 := (i 1).isLt
  have hlt : (i 0).val / 4000 < 50 := by omega
  obtain ⟨-, -, -, -, -, -, -, -, -, -, -, -, -, -, -, -, -, -, -, -, -, -, -, -, -, -, -, -, -, -, -, -, -, -, -, -, -, -, ea, eb⟩ := idx_facts ⟨(i 0).val / 4000, hlt⟩
  refine ⟨⟨(i 0).val / 4000, hlt⟩, flush2_19 _, ?_⟩
  rw [mem_blk]
  intro a
  match a with
  | ⟨0, _⟩ =>
    show win2_19.index ⟨(i 0).val / 4000, hlt⟩ (0 : Fin 2) * 4000 ≤ (i 0).val ∧ (i 0).val < win2_19.index ⟨(i 0).val / 4000, hlt⟩ (0 : Fin 2) * 4000 + 4000
    rw [ea]; show (i 0).val / 4000 * 4000 ≤ (i 0).val ∧ (i 0).val < (i 0).val / 4000 * 4000 + 4000; omega
  | ⟨1, _⟩ =>
    show win2_19.index ⟨(i 0).val / 4000, hlt⟩ (1 : Fin 2) * 128 ≤ (i 1).val ∧ (i 1).val < win2_19.index ⟨(i 0).val / 4000, hlt⟩ (1 : Fin 2) * 128 + 128
    rw [eb]; omega

/-- THE ARRAY after the launch. -/
theorem final (c : Dev nD) : (dat2 (F := Ideal) V c).arrAt 19 cfg2.N = G V c :=
  (dat2 V c).arrAt_eq_of_cover 19 (G V c) (fun t _ => flushed_eq V c t) cover

end Cert.KernelIdeal.Region2

end
-- ==== Proof.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.KernelTake.lean ====
/-
  The gather's mask is all ones.  The program reads rows of a table at signed 32-bit index words  s  wrapped the NumPy
  way,  s' = if s < 0 then s + 200000 else s , and masks the rows read by the range test  0 ≤ s' ∧ s' ≤ 199999  of the
  wrapped word (the test is reduced by  and  over the index column's unit axis and then repeated along each row).
  When every index word, read signed, lies in  [-200000, 200000) , the wrapped word lies in  [0, 200000) , so the test
  is the bit 1 at every index, its reduction from 1 is 1, and the mask is 1 everywhere.
-/
import proofs.«424410_j63531156242867_2_alg».proof.Proof.Gen.KernelIdeal
import proofs.«424410_j63531156242867_2_alg».proof.Proof.LibIndexWrap

noncomputable section

namespace Cert.KernelIdeal.Take

open Idealize.ShloMosaic Cert.KernelIdeal Cert.KernelIdeal.Gen

/-- The triplets' source-edge indices wrapped the NumPy way, as a column. -/
def idxCol (i28 : IVec S1600000 32) : IVec S1600000x1 32 :=
  broadcastInDim S1600000x1 ![0] bcast_S1600000_S1600000x1_0
    (select (cmpi .slt i28 (broadcastInDim S1600000 ![] bcast_S_S1600000 (constantI S_ 32 0#32)))
      (addi i28 (broadcastInDim S1600000 ![] bcast_S_S1600000 (constantI S_ 32 200000#32))) i28)

/-- The range test of the wrapped indices, reduced over the column's unit axis and broadcast along the rows. -/
def mask (i28 : IVec S1600000 32) : IVec S1600000x64 1 :=
  broadcastInDim S1600000x64 ![0] bcast_S1600000_S1600000x64_0
    (Host.reduce IntOp.andi
      (andi (cmpi .sge (idxCol i28) (broadcastInDim S1600000x1 ![] bcast_S_S1600000x1 (constantI S_ 32 0#32)))
        (cmpi .sle (idxCol i28) (broadcastInDim S1600000x1 ![0, 1] bcast_S1x1_S1600000x1_0_1 (broadcastInDim S1x1 ![1] bcast_S1_S1x1_1 (constantI S1 32 199999#32)))))
      (constantI S_ 1 1#1) reducesTo_S1600000x1_S1600000_d1 h_S_)

/-- At every index of the column the range test compares the wrapped word of one index word with 0 and 199999, and
    under the index range it is the bit 1. -/
theorem rangeTest_ones (i28 : IVec S1600000 32)
    (h : ∀ t : S1600000.Idx, -(200000 : Int) ≤ (i28 t).toInt ∧ (i28 t).toInt < 200000) (i : S1600000x1.Idx) :
    andi (cmpi .sge (idxCol i28) (broadcastInDim S1600000x1 ![] bcast_S_S1600000x1 (constantI S_ 32 0#32)))
      (cmpi .sle (idxCol i28) (broadcastInDim S1600000x1 ![0, 1] bcast_S1x1_S1600000x1_0_1 (broadcastInDim S1x1 ![1] bcast_S1_S1x1_1 (constantI S1 32 199999#32)))) i = 1#1 := by
  show IntOp.andi (IntOp.cmpi .sge (IndexWrap.wrapWord (BitVec.ofNat 32 200000) (i28 _)) 0#32)
    (IntOp.cmpi .sle (IndexWrap.wrapWord (BitVec.ofNat 32 200000) (i28 _)) 199999#32) = 1#1
  exact IndexWrap.rangeTest_wrap 200000 (by decide) (by decide) _ (by decide) _ (h _).1 (h _).2

/-- A broadcast reads its operand at some index: of an operand that is 1 everywhere it is 1 everywhere. -/
theorem bcast_ones {s t : Shape} {dims : Fin s.rank → Fin t.rank} (hb : s.BroadcastsInDim t dims) (x : IVec s 1)
    (hx : ∀ i, x i = 1#1) (j : t.Idx) : broadcastInDim t dims hb x j = 1#1 := hx _

/-- Under the index range the mask is 1 everywhere. -/
theorem mask_ones (i28 : IVec S1600000 32) (h : ∀ t : S1600000.Idx, -(200000 : Int) ≤ (i28 t).toInt ∧ (i28 t).toInt < 200000) :
    ∀ j : S1600000x64.Idx, mask i28 j = 1#1 := fun j =>
  bcast_ones _ _ (fun t => IndexWrap.reduce_andi_of_all _ _ _ _ (fun _ => rfl) (rangeTest_ones i28 h) t) j

end Cert.KernelIdeal.Take
-- ==== Proof.KernelHost.lean ====
/-
  What each launch finds in the buffers it reads, and what the host operations between the launches compute, read
  back through @main's fold of buffer contents to the launch memory. An argument that nothing writes is as launched;
  the two folded projections are host products of arguments; the bias rows are reshapes of arguments; the first two
  launches' outputs are what those launches leave; the gather and the scatter-add are host operations of those.
-/
import proofs.«424410_j63531156242867_2_alg».proof.Proof.Gen.KernelIdeal.Frame
import proofs.«424410_j63531156242867_2_alg».proof.Proof.LibTRef
import proofs.«424410_j63531156242867_2_alg».proof.Proof.KernelTake
import Idealize.ShloMosaic.Lib.StableHlo.Run

set_option maxRecDepth 16384

noncomputable section

namespace Cert.KernelIdeal.HostVals

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- No operation of the named stretch writes the buffer. -/
local macro "nw " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Buffers nothing writes before a boundary -/

/-- A buffer the first host stretch does not write is as launched when the first launch is entered. -/
theorem W1_kept (c : Dev nD) (b : Ref sig .tc) (h0 : ∀ op ∈ (hostOps0 : List (HloOp τ sig (Elt F))), Proc.devRef .tc b ∉ op.writes) :
    W1 m ρ c (Proc.devRef .tc b) = m ((c : Thread nD τ).loc b) :=
  StableHlo.after_of_forall_not_mem (b := Proc.devRef .tc b) _ _ h0

/-- A buffer that neither the first host stretch nor the first two launches write is as launched after them. -/
theorem W3_kept (c : Dev nD) (b : Ref sig .tc) (h1 : ∀ w, Pipeline.arrRef spec1 w ≠ b) (h0 : ∀ w, Pipeline.arrRef spec0 w ≠ b)
    (hh : ∀ op ∈ (hostOps0 : List (HloOp τ sig (Elt F))), Proc.devRef .tc b ∉ op.writes) :
    W3 m ρ c (Proc.devRef .tc b) = m ((c : Thread nD τ).loc b) :=
  (W3_of_ne m ρ c b h1).trans ((W2_of_ne m ρ c b h0).trans (W1_kept m ρ c b hh))

/-- The same through the gather's stretch. -/
theorem W4_kept (c : Dev nD) (b : Ref sig .tc) (h2 : ∀ op ∈ (hostOps2 : List (HloOp τ sig (Elt F))), Proc.devRef .tc b ∉ op.writes)
    (h1 : ∀ w, Pipeline.arrRef spec1 w ≠ b) (h0 : ∀ w, Pipeline.arrRef spec0 w ≠ b)
    (hh : ∀ op ∈ (hostOps0 : List (HloOp τ sig (Elt F))), Proc.devRef .tc b ∉ op.writes) :
    W4 m ρ c (Proc.devRef .tc b) = m ((c : Thread nD τ).loc b) :=
  (StableHlo.after_of_forall_not_mem (b := Proc.devRef .tc b) _ _ h2).trans (W3_kept m ρ c b h1 h0 hh)

/-! ## What the first launch finds -/

theorem V1_arg0 (c : Dev nD) : V1 m ρ c main_arg0 = m ((c : Thread nD τ).loc main_arg0) := W1_kept m ρ c main_arg0 (by nw hostOps0)
theorem V1_arg1 (c : Dev nD) : V1 m ρ c main_arg1 = m ((c : Thread nD τ).loc main_arg1) := W1_kept m ρ c main_arg1 (by nw hostOps0)
theorem V1_arg3 (c : Dev nD) : V1 m ρ c main_arg3 = m ((c : Thread nD τ).loc main_arg3) := W1_kept m ρ c main_arg3 (by nw hostOps0)
theorem V1_arg7 (c : Dev nD) : V1 m ρ c main_arg7 = m ((c : Thread nD τ).loc main_arg7) := W1_kept m ρ c main_arg7 (by nw hostOps0)
/-- The folded radial projection: a host product of two arguments. -/
theorem V1_v0 (c : Dev nD) : V1 m ρ c main_v0
    = Host.dotGeneral dot_S6x8_S8x128_S6x128_1_0_0_1_n_n none (m ((c : Thread nD τ).loc main_arg5)) (m ((c : Thread nD τ).loc main_arg6)) := by
  show StableHlo.after hostOps0 (W0 m ρ c) (Proc.devRef .tc main_v0) = _
  after_results
/-- The first bias as a one-row matrix: a reshape of an argument. -/
theorem V1_v2 (c : Dev nD) : V1 m ρ c main_v2 = shapeCast S1x128 (m ((c : Thread nD τ).loc main_arg4)) shapeCasts_S128_S1x128 := by
  show StableHlo.after hostOps0 (W0 m ρ c) (Proc.devRef .tc main_v2) = _
  after_results
  rfl

/-! ## What the second launch finds -/

theorem V2_arg2 (c : Dev nD) : V2 m ρ c main_arg2 = m ((c : Thread nD τ).loc main_arg2) :=
  (W2_of_ne m ρ c main_arg2 (by decide)).trans (W1_kept m ρ c main_arg2 (by nw hostOps0))
/-- The folded spherical projection: a host product of two arguments. -/
theorem V2_v1 (c : Dev nD) : V2 m ρ c main_v1
    = Host.dotGeneral dot_S42x8_S8x64_S42x64_1_0_0_1_n_n none (m ((c : Thread nD τ).loc main_arg8)) (m ((c : Thread nD τ).loc main_arg9)) := by
  refine (W2_of_ne m ρ c main_v1 (by decide)).trans ?_
  show StableHlo.after hostOps0 (W0 m ρ c) (Proc.devRef .tc main_v1) = _
  after_results

/-! ## After the first two launches -/

theorem W3_v3 (c : Dev nD) : W3 m ρ c (Proc.devRef .tc main_v3) = (dat0 (V1 m ρ) c).arrAt 6 cfg0.N :=
  (W3_of_ne m ρ c main_v3 (by decide)).trans (W2_arr m ρ c 6)
theorem W3_v4 (c : Dev nD) : W3 m ρ c (Proc.devRef .tc main_v4) = (dat1 (V2 m ρ) c).arrAt 2 cfg1.N := W3_arr m ρ c 2
theorem W3_arg28 (c : Dev nD) : W3 m ρ c (Proc.devRef .tc main_arg28) = m ((c : Thread nD τ).loc main_arg28) :=
  W3_kept m ρ c main_arg28 (by decide) (by decide) (by nw hostOps0)
theorem W4_arg27 (c : Dev nD) : W4 m ρ c (Proc.devRef .tc main_arg27) = m ((c : Thread nD τ).loc main_arg27) :=
  W4_kept m ρ c main_arg27 (by nw hostOps2) (by decide) (by decide) (by nw hostOps0)
theorem W4_v4 (c : Dev nD) : W4 m ρ c (Proc.devRef .tc main_v4) = W3 m ρ c (Proc.devRef .tc main_v4) :=
  StableHlo.after_of_forall_not_mem (b := Proc.devRef .tc main_v4) _ _ (by nw hostOps2)

/-! ## The gather with its fill, and the scatter-add -/

/-- Reading a buffer at its own contents type, and writing a value of the buffer's type, are the identity. -/
theorem ofBuf_arg28 (c : Dev nD) (h1 h2 h3) (v : Buf (Elt F) ((c : Thread nD τ).loc main_arg28)) :
    (TRef.of (T := ⟨S1600000, .i32⟩) main_arg28 h1 h2 h3).ofBuf (Val := Elt F) v = v := rfl
theorem ofBuf_v3 (c : Dev nD) (h1 h2 h3) (v : Buf (Elt F) ((c : Thread nD τ).loc main_v3)) :
    (TRef.of (T := ⟨S200000x64, .f32⟩) main_v3 h1 h2 h3).ofBuf (Val := Elt F) v = v := rfl
theorem toBuf_v5 (h1 h2 h3) (v : (⟨S1600000x64, .f32⟩ : BufTy).Contents (Elt F)) :
    (TRef.of (T := ⟨S1600000x64, .f32⟩) main_v5 h1 h2 h3).toBuf (Val := Elt F) v = v := rfl

set_option maxHeartbeats 4000000 in
/-- The gathered rows: the table's rows at the wrapped indices where the range test passes, the fill word elsewhere. -/
theorem W4_v5 (c : Dev nD) : W4 m ρ c (Proc.devRef .tc main_v5)
    = select (Take.mask (W3 m ρ c (Proc.devRef .tc main_arg28)))
        (Host.gather gather_S200000x64_S1600000x1_S1600000x64_1_0_n_n_0_1_164 (W3 m ρ c (Proc.devRef .tc main_v3))
          (Take.idxCol (W3 m ρ c (Proc.devRef .tc main_arg28))))
        (broadcastInDim S1600000x64 ![] bcast_S_S1600000x64 (constant (F := F) S_ .f32 0x7FC00000#32)) := by
  show StableHlo.after hostOps2 (W3 m ρ c) (Proc.devRef .tc main_v5) = _
  after_results_simp
  simp only [TRef.ofBuf_toBuf, TRef.toBuf_ofBuf, ofBuf_arg28 c, ofBuf_v3 c, toBuf_v5]
  rfl

set_option maxHeartbeats 4000000 in
/-- The aggregate: the gathered rows times the triplet weights, scatter-added into zeros at the target edges. -/
theorem W5_v10 (c : Dev nD) : V5 m ρ c main_v10
    = Host.scatterAdd scatter_S200000x64_S1600000x1_S1600000x64_1_0_0_1
        (broadcastInDim S200000x64 ![] bcast_S_S200000x64 (constant (F := F) S_ .f32 0x00000000#32))
        (broadcastInDim S1600000x1 ![0] bcast_S1600000_S1600000x1_0 (W4 m ρ c (Proc.devRef .tc main_arg27)))
        (mulf (W4 m ρ c (Proc.devRef .tc main_v5)) (extf .f32 (W4 m ρ c (Proc.devRef .tc main_v4)) bitsLt_bf16_f32)) := by
  show StableHlo.after hostOps2_1 (W4 m ρ c) (Proc.devRef .tc main_v10) = _
  after_results_simp

/-! ## What the third launch finds -/

theorem V5_arg0 (c : Dev nD) : V5 m ρ c main_arg0 = m ((c : Thread nD τ).loc main_arg0) :=
  ((W6_arr m ρ c 0).trans (((dat2 (V5 m ρ) c).arrAt_in 0 rfl _).trans (A_eq2 (V5 m ρ) c 0))).symm.trans (W6_main_arg0 m ρ c)
theorem V5_arg10 (c : Dev nD) : V5 m ρ c main_arg10 = m ((c : Thread nD τ).loc main_arg10) :=
  ((W6_arr m ρ c 2).trans (((dat2 (V5 m ρ) c).arrAt_in 2 rfl _).trans (A_eq2 (V5 m ρ) c 2))).symm.trans (W6_main_arg10 m ρ c)
theorem V5_arg11 (c : Dev nD) : V5 m ρ c main_arg11 = m ((c : Thread nD τ).loc main_arg11) :=
  ((W6_arr m ρ c 3).trans (((dat2 (V5 m ρ) c).arrAt_in 3 rfl _).trans (A_eq2 (V5 m ρ) c 3))).symm.trans (W6_main_arg11 m ρ c)
theorem V5_arg13 (c : Dev nD) : V5 m ρ c main_arg13 = m ((c : Thread nD τ).loc main_arg13) :=
  ((W6_arr m ρ c 5).trans (((dat2 (V5 m ρ) c).arrAt_in 5 rfl _).trans (A_eq2 (V5 m ρ) c 5))).symm.trans (W6_main_arg13 m ρ c)
theorem V5_arg15 (c : Dev nD) : V5 m ρ c main_arg15 = m ((c : Thread nD τ).loc main_arg15) :=
  ((W6_arr m ρ c 7).trans (((dat2 (V5 m ρ) c).arrAt_in 7 rfl _).trans (A_eq2 (V5 m ρ) c 7))).symm.trans (W6_main_arg15 m ρ c)
theorem V5_arg17 (c : Dev nD) : V5 m ρ c main_arg17 = m ((c : Thread nD τ).loc main_arg17) :=
  ((W6_arr m ρ c 9).trans (((dat2 (V5 m ρ) c).arrAt_in 9 rfl _).trans (A_eq2 (V5 m ρ) c 9))).symm.trans (W6_main_arg17 m ρ c)
theorem V5_arg19 (c : Dev nD) : V5 m ρ c main_arg19 = m ((c : Thread nD τ).loc main_arg19) :=
  ((W6_arr m ρ c 11).trans (((dat2 (V5 m ρ) c).arrAt_in 11 rfl _).trans (A_eq2 (V5 m ρ) c 11))).symm.trans (W6_main_arg19 m ρ c)
theorem V5_arg21 (c : Dev nD) : V5 m ρ c main_arg21 = m ((c : Thread nD τ).loc main_arg21) :=
  ((W6_arr m ρ c 13).trans (((dat2 (V5 m ρ) c).arrAt_in 13 rfl _).trans (A_eq2 (V5 m ρ) c 13))).symm.trans (W6_main_arg21 m ρ c)
theorem V5_arg23 (c : Dev nD) : V5 m ρ c main_arg23 = m ((c : Thread nD τ).loc main_arg23) :=
  ((W6_arr m ρ c 15).trans (((dat2 (V5 m ρ) c).arrAt_in 15 rfl _).trans (A_eq2 (V5 m ρ) c 15))).symm.trans (W6_main_arg23 m ρ c)
theorem V5_arg25 (c : Dev nD) : V5 m ρ c main_arg25 = m ((c : Thread nD τ).loc main_arg25) :=
  ((W6_arr m ρ c 17).trans (((dat2 (V5 m ρ) c).arrAt_in 17 rfl _).trans (A_eq2 (V5 m ρ) c 17))).symm.trans (W6_main_arg25 m ρ c)

set_option maxHeartbeats 1000000 in
theorem V5_v11 (c : Dev nD) : V5 m ρ c main_v11 = shapeCast S1x128 (m ((c : Thread nD τ).loc main_arg12)) shapeCasts_S128_S1x128 := by
  rw [← W4_kept m ρ c main_arg12 (by nw hostOps2) (by decide) (by decide) (by nw hostOps0)]
  show StableHlo.after hostOps2_1 (W4 m ρ c) (Proc.devRef .tc main_v11) = _
  after_results_simp
  rfl
set_option maxHeartbeats 1000000 in
theorem V5_v12 (c : Dev nD) : V5 m ρ c main_v12 = shapeCast S1x128 (m ((c : Thread nD τ).loc main_arg14)) shapeCasts_S128_S1x128 := by
  rw [← W4_kept m ρ c main_arg14 (by nw hostOps2) (by decide) (by decide) (by nw hostOps0)]
  show StableHlo.after hostOps2_1 (W4 m ρ c) (Proc.devRef .tc main_v12) = _
  after_results_simp
  rfl
set_option maxHeartbeats 1000000 in
theorem V5_v13 (c : Dev nD) : V5 m ρ c main_v13 = shapeCast S1x128 (m ((c : Thread nD τ).loc main_arg16)) shapeCasts_S128_S1x128 := by
  rw [← W4_kept m ρ c main_arg16 (by nw hostOps2) (by decide) (by decide) (by nw hostOps0)]
  show StableHlo.after hostOps2_1 (W4 m ρ c) (Proc.devRef .tc main_v13) = _
  after_results_simp
  rfl
set_option maxHeartbeats 1000000 in
theorem V5_v14 (c : Dev nD) : V5 m ρ c main_v14 = shapeCast S1x128 (m ((c : Thread nD τ).loc main_arg18)) shapeCasts_S128_S1x128 := by
  rw [← W4_kept m ρ c main_arg18 (by nw hostOps2) (by decide) (by decide) (by nw hostOps0)]
  show StableHlo.after hostOps2_1 (W4 m ρ c) (Proc.devRef .tc main_v14) = _
  after_results_simp
  rfl
set_option maxHeartbeats 1000000 in
theorem V5_v15 (c : Dev nD) : V5 m ρ c main_v15 = shapeCast S1x128 (m ((c : Thread nD τ).loc main_arg20)) shapeCasts_S128_S1x128 := by
  rw [← W4_kept m ρ c main_arg20 (by nw hostOps2) (by decide) (by decide) (by nw hostOps0)]
  show StableHlo.after hostOps2_1 (W4 m ρ c) (Proc.devRef .tc main_v15) = _
  after_results_simp
  rfl
set_option maxHeartbeats 1000000 in
theorem V5_v16 (c : Dev nD) : V5 m ρ c main_v16 = shapeCast S1x128 (m ((c : Thread nD τ).loc main_arg22)) shapeCasts_S128_S1x128 := by
  rw [← W4_kept m ρ c main_arg22 (by nw hostOps2) (by decide) (by decide) (by nw hostOps0)]
  show StableHlo.after hostOps2_1 (W4 m ρ c) (Proc.devRef .tc main_v16) = _
  after_results_simp
  rfl
set_option maxHeartbeats 1000000 in
theorem V5_v17 (c : Dev nD) : V5 m ρ c main_v17 = shapeCast S1x128 (m ((c : Thread nD τ).loc main_arg24)) shapeCasts_S128_S1x128 := by
  rw [← W4_kept m ρ c main_arg24 (by nw hostOps2) (by decide) (by decide) (by nw hostOps0)]
  show StableHlo.after hostOps2_1 (W4 m ρ c) (Proc.devRef .tc main_v17) = _
  after_results_simp
  rfl
set_option maxHeartbeats 1000000 in
theorem V5_v18 (c : Dev nD) : V5 m ρ c main_v18 = shapeCast S1x128 (m ((c : Thread nD τ).loc main_arg26)) shapeCasts_S128_S1x128 := by
  rw [← W4_kept m ρ c main_arg26 (by nw hostOps2) (by decide) (by decide) (by nw hostOps0)]
  show StableHlo.after hostOps2_1 (W4 m ρ c) (Proc.devRef .tc main_v18) = _
  after_results_simp
  rfl

end Cert.KernelIdeal.HostVals

end
-- ==== Proof.KernelValue.lean ====
/-
  The kernel program's result as one function of its arguments. The result buffer is the third launch's output
  array: the combine and residual stack of the edge embedding and the aggregate; the aggregate is the host's
  scatter-add of the gathered first launch's output times the second launch's output; under the index range of the
  precondition the gather's fill mask is all ones, so the gather is the plain one; the two folded projections are
  products of arguments; the bias rows are the bias vectors.
-/
import proofs.«424410_j63531156242867_2_alg».proof.Proof.KernelRun
import proofs.«424410_j63531156242867_2_alg».proof.Proof.Kernel0
import proofs.«424410_j63531156242867_2_alg».proof.Proof.Kernel1
import proofs.«424410_j63531156242867_2_alg».proof.Proof.Kernel2
import proofs.«424410_j63531156242867_2_alg».proof.Proof.KernelHost
import proofs.«424410_j63531156242867_2_alg».proof.Proof.KernelTake

set_option maxRecDepth 16384

noncomputable section

namespace Cert.KernelIdeal.KValue

open Cert.KernelIdeal Cert.KernelIdeal.Gen Cert.KernelIdeal.HostVals Cert.Dense
open Idealize.ShloMosaic Idealize.ShloMosaic.TcCoe Idealize.ShloMosaic.ValueIdx Idealize.SL.Sem

variable (m : (ℓ : Loc nD τ sig) → Buf (Elt Ideal) ℓ) (ρ : Dev nD → PrngReg)

/-- The aggregation the program applies on the host: the edge messages M gathered at the triplets' source edges
    (indices wrapped the NumPy way), times the triplet weights S, scatter-added to the triplets' target edges. -/
def agg (M : Mat 200000 64) (S : Mat 1600000 64) (i27 i28 : IVec S1600000 32) : Mat 200000 64 :=
  Host.scatterAdd (F := Ideal) scatter_S200000x64_S1600000x1_S1600000x64_1_0_0_1
    (broadcastInDim S200000x64 ![] bcast_S_S200000x64 (constant (F := Ideal) S_ .f32 0x00000000#32))
    (broadcastInDim S1600000x1 ![0] bcast_S1600000_S1600000x1_0 i27)
    (mulf (F := Ideal) (φ := .f32) (Host.gather gather_S200000x64_S1600000x1_S1600000x64_1_0_n_n_0_1_164 M (Take.idxCol i28)) S)

/-- The first launch's output, in the arguments. -/
theorem mang_eq (c : Dev nD) : (dat0 (F := Ideal) (V1 m ρ) c).arrAt 6 cfg0.N
    = Cert.Spec.mang (m ((c : Thread nD τ).loc main_arg0)) (m ((c : Thread nD τ).loc main_arg1)) (m ((c : Thread nD τ).loc main_arg3)) (Cert.Mlp.vec (m ((c : Thread nD τ).loc main_arg4)))
        (mm (m ((c : Thread nD τ).loc main_arg5)) (m ((c : Thread nD τ).loc main_arg6))) (m ((c : Thread nD τ).loc main_arg7)) := by
  rw [Region0.final (V1 m ρ) c]
  show Cert.Spec.mang (V1 m ρ c main_arg0) (V1 m ρ c main_arg1) (V1 m ρ c main_arg3) (Cert.Mlp.row (V1 m ρ c main_v2))
    (V1 m ρ c main_v0) (V1 m ρ c main_arg7) = _
  rw [V1_arg0, V1_arg1, V1_arg3, V1_arg7, V1_v0, V1_v2, Cert.Mlp.row_shapeCast,
    host_mm dot_S6x8_S8x128_S6x128_1_0_0_1_n_n rfl]

/-- The second launch's output, in the arguments. -/
theorem s2_eq (c : Dev nD) : ((dat1 (F := Ideal) (V2 m ρ) c).arrAt 2 cfg1.N : Mat 1600000 64)
    = mm (m ((c : Thread nD τ).loc main_arg2)) (mm (m ((c : Thread nD τ).loc main_arg8)) (m ((c : Thread nD τ).loc main_arg9))) := by
  rw [Region1.final (V2 m ρ) c]
  show mm (V2 m ρ c main_arg2 : Mat 1600000 42) (V2 m ρ c main_v1 : Mat 42 64) = _
  rw [V2_arg2, V2_v1, host_mm dot_S42x8_S8x64_S42x64_1_0_0_1_n_n rfl]

/-- The aggregate the third launch finds. -/
theorem agg_eq (c : Dev nD)
    (hidx : ∀ t : S1600000.Idx, -(200000 : Int) ≤ (m ((c : Thread nD τ).loc main_arg28) t).toInt ∧ (m ((c : Thread nD τ).loc main_arg28) t).toInt < 200000) :
    V5 m ρ c main_v10 = agg
      (Cert.Spec.mang (m ((c : Thread nD τ).loc main_arg0)) (m ((c : Thread nD τ).loc main_arg1)) (m ((c : Thread nD τ).loc main_arg3)) (Cert.Mlp.vec (m ((c : Thread nD τ).loc main_arg4)))
        (mm (m ((c : Thread nD τ).loc main_arg5)) (m ((c : Thread nD τ).loc main_arg6))) (m ((c : Thread nD τ).loc main_arg7)))
      (mm (m ((c : Thread nD τ).loc main_arg2)) (mm (m ((c : Thread nD τ).loc main_arg8)) (m ((c : Thread nD τ).loc main_arg9)))) (m ((c : Thread nD τ).loc main_arg27)) (m ((c : Thread nD τ).loc main_arg28)) := by
  rw [W5_v10, W4_arg27, W4_v5, W4_v4, W3_v4, W3_v3, W3_arg28, mang_eq, s2_eq,
    IndexWrap.select_of_ones _ _ _ (Take.mask_ones _ hidx)]
  rfl

set_option maxHeartbeats 4000000 in
/-- THE RESULT: the last boundary's contents at the result buffer, in the arguments. -/
theorem result (c : Dev nD)
    (hidx : ∀ t : S1600000.Idx, -(200000 : Int) ≤ (m ((c : Thread nD τ).loc main_arg28) t).toInt ∧ (m ((c : Thread nD τ).loc main_arg28) t).toInt < 200000) :
    W6 m ρ c (Proc.devRef .tc main_v19)
      = Cert.Spec.final (m ((c : Thread nD τ).loc main_arg0))
          (agg (Cert.Spec.mang (m ((c : Thread nD τ).loc main_arg0)) (m ((c : Thread nD τ).loc main_arg1)) (m ((c : Thread nD τ).loc main_arg3)) (Cert.Mlp.vec (m ((c : Thread nD τ).loc main_arg4)))
              (mm (m ((c : Thread nD τ).loc main_arg5)) (m ((c : Thread nD τ).loc main_arg6))) (m ((c : Thread nD τ).loc main_arg7)))
            (mm (m ((c : Thread nD τ).loc main_arg2)) (mm (m ((c : Thread nD τ).loc main_arg8)) (m ((c : Thread nD τ).loc main_arg9)))) (m ((c : Thread nD τ).loc main_arg27)) (m ((c : Thread nD τ).loc main_arg28)))
          (m ((c : Thread nD τ).loc main_arg10)) (m ((c : Thread nD τ).loc main_arg11)) (Cert.Mlp.vec (m ((c : Thread nD τ).loc main_arg12)))
          (m ((c : Thread nD τ).loc main_arg13)) (Cert.Mlp.vec (m ((c : Thread nD τ).loc main_arg14))) (m ((c : Thread nD τ).loc main_arg15)) (Cert.Mlp.vec (m ((c : Thread nD τ).loc main_arg16)))
          (m ((c : Thread nD τ).loc main_arg17)) (Cert.Mlp.vec (m ((c : Thread nD τ).loc main_arg18)))
          (m ((c : Thread nD τ).loc main_arg19)) (Cert.Mlp.vec (m ((c : Thread nD τ).loc main_arg20))) (m ((c : Thread nD τ).loc main_arg21)) (Cert.Mlp.vec (m ((c : Thread nD τ).loc main_arg22)))
          (m ((c : Thread nD τ).loc main_arg23)) (Cert.Mlp.vec (m ((c : Thread nD τ).loc main_arg24))) (m ((c : Thread nD τ).loc main_arg25)) (Cert.Mlp.vec (m ((c : Thread nD τ).loc main_arg26))) := by
  refine ((W6_arr m ρ c 19).trans (Region2.final (V5 m ρ) c)).trans ?_
  show Cert.Spec.final (V5 m ρ c main_arg0) (V5 m ρ c main_v10) (V5 m ρ c main_arg10) (V5 m ρ c main_arg11) (Cert.Mlp.row (V5 m ρ c main_v11))
    (V5 m ρ c main_arg13) (Cert.Mlp.row (V5 m ρ c main_v12)) (V5 m ρ c main_arg15) (Cert.Mlp.row (V5 m ρ c main_v13))
    (V5 m ρ c main_arg17) (Cert.Mlp.row (V5 m ρ c main_v14))
    (V5 m ρ c main_arg19) (Cert.Mlp.row (V5 m ρ c main_v15)) (V5 m ρ c main_arg21) (Cert.Mlp.row (V5 m ρ c main_v16))
    (V5 m ρ c main_arg23) (Cert.Mlp.row (V5 m ρ c main_v17)) (V5 m ρ c main_arg25) (Cert.Mlp.row (V5 m ρ c main_v18)) = _
  rw [agg_eq m ρ c hidx, V5_arg0, V5_arg10, V5_arg11, V5_arg13, V5_arg15, V5_arg17, V5_arg19, V5_arg21, V5_arg23, V5_arg25,
    V5_v11, V5_v12, V5_v13, V5_v14, V5_v15, V5_v16, V5_v17, V5_v18]
  iterate 8 rw [Cert.Mlp.row_shapeCast]

end Cert.KernelIdeal.KValue

end
-- ==== Proof.RefValue.lean ====
/-
  The reference program's result as one closed function of its arguments.

  The program is a directional message-passing block: a dense layer of the edge embedding modulated by the projected
  radial basis, projected down and activated; gathered at each triplet's source edge, modulated by the projected
  spherical basis and scatter-added to the triplet's target edge; projected up, combined with a second dense layer of
  the embedding, and sent through a residual layer, a dense layer with a skip connection and two more residual layers.
  Each stage is read off the host's spelling as a whole array (a product as the sum over the middle coordinate, a bias
  broadcast in two steps, the activation written out as  y * (1 / (1 + exp (-y)))), never index by index; the stages are
  then chained.  The program multiplies  (rbf · Wrbf1) · Wrbf2  and  (sbf · Wsbf1) · Wsbf2 ; with real entries these are
  rbf · (Wrbf1 · Wrbf2)  and  sbf · (Wsbf1 · Wsbf2) , the form in which the result is stated.
-/
import proofs.«424410_j63531156242867_2_alg».proof.Proof.RefStages
import proofs.«424410_j63531156242867_2_alg».proof.Proof.Spec

noncomputable section

namespace Cert.ReferenceIdeal.RefValue

open Idealize.ShloMosaic Cert.ReferenceIdeal Cert.ReferenceIdeal.Gen Cert.Dense

/-- The aggregation both programs apply on the host: the edge messages M gathered at the triplets' source edges
    (indices wrapped the NumPy way), times the triplet weights S, scatter-added to the triplets' target edges. -/
def agg (M : Mat 200000 64) (S : Mat 1600000 64) (i27 i28 : IVec S1600000 32) : Mat 200000 64 :=
  Host.scatterAdd (F := Ideal) scatter_S200000x64_S1600000x1_S1600000x64_1_0_0_1
    (broadcastInDim S200000x64 ![] bcast_S_S200000x64 (constant (F := Ideal) S_ .f32 0x00000000#32))
    (broadcastInDim S1600000x1 ![0] bcast_S1600000_S1600000x1_0 i27)
    (mulf (F := Ideal) (φ := .f32) (Host.gather gather_S200000x64_S1600000x1_S1600000x64_1_0_n_n_0_1_164 M
      (broadcastInDim S1600000x1 ![0] bcast_S1600000_S1600000x1_0
        (select (cmpi .slt i28 (broadcastInDim S1600000 ![] bcast_S_S1600000 (constantI S_ 32 0#32)))
          (addi i28 (broadcastInDim S1600000 ![] bcast_S_S1600000 (constantI S_ 32 200000#32))) i28))) S)

/-! ## The seven products of the program are plain row-by-column products -/

theorem d_128_128 : dot_S200000x128_S128x128_S200000x128_1_0_0_1_n_n = DotDims.plain 200000 128 128 := rfl
theorem d_6_8 : dot_S200000x6_S6x8_S200000x8_1_0_0_1_n_n = DotDims.plain 200000 6 8 := rfl
theorem d_8_128 : dot_S200000x8_S8x128_S200000x128_1_0_0_1_n_n = DotDims.plain 200000 8 128 := rfl
theorem d_128_64 : dot_S200000x128_S128x64_S200000x64_1_0_0_1_n_n = DotDims.plain 200000 128 64 := rfl
theorem d_42_8 : dot_S1600000x42_S42x8_S1600000x8_1_0_0_1_n_n = DotDims.plain 1600000 42 8 := rfl
theorem d_8_64 : dot_S1600000x8_S8x64_S1600000x64_1_0_0_1_n_n = DotDims.plain 1600000 8 64 := rfl
theorem d_64_128 : dot_S200000x64_S64x128_S200000x128_1_0_0_1_n_n = DotDims.plain 200000 64 128 := rfl

/-! ## The host's spelling of a whole stage -/

theorem addf_hadd {S : Shape} (a b : FVec Ideal S .f32) : addf a b = hadd a b := rfl
theorem mulf_hmul {S : Shape} (a b : FVec Ideal S .f32) : mulf a b = hmul a b := rfl

/-- A dense layer as the host writes it: the product, the bias broadcast in two steps and added, and the
    activation  y * (1 / (1 + exp (-y)))  of the sum y. -/
theorem host_dense {N K H : ℕ} (d : DotDims ⟨2, ![N, K]⟩ ⟨2, ![K, H]⟩ ⟨2, ![N, H]⟩) (hd : d = DotDims.plain N K H)
    (h1 : (⟨1, ![H]⟩ : Shape).BroadcastsInDim ⟨2, ![1, H]⟩ ![1])
    (h2 : (⟨2, ![1, H]⟩ : Shape).BroadcastsInDim ⟨2, ![N, H]⟩ ![0, 1])
    (h0 : (⟨0, ![]⟩ : Shape).BroadcastsInDim ⟨2, ![N, H]⟩ ![])
    (a : FVec Ideal ⟨2, ![N, K]⟩ .f32) (W : FVec Ideal ⟨2, ![K, H]⟩ .f32) (b : FVec Ideal ⟨1, ![H]⟩ .f32) :
    mulf (addf (Host.dotGeneral d none a W)
        (broadcastInDim (⟨2, ![N, H]⟩ : Shape) ![0, 1] h2 (broadcastInDim (⟨2, ![1, H]⟩ : Shape) ![1] h1 b)))
      (Host.divf (broadcastInDim (⟨2, ![N, H]⟩ : Shape) ![] h0 (constant (⟨0, ![]⟩ : Shape) .f32 0x3F800000#32))
        (addf (broadcastInDim (⟨2, ![N, H]⟩ : Shape) ![] h0 (constant (⟨0, ![]⟩ : Shape) .f32 0x3F800000#32))
          (Host.exp (Host.negf (addf (Host.dotGeneral d none a W)
            (broadcastInDim (⟨2, ![N, H]⟩ : Shape) ![0, 1] h2 (broadcastInDim (⟨2, ![1, H]⟩ : Shape) ![1] h1 b)))))))
      = dense a W (Cert.Mlp.vec b) := by
  rw [host_act, host_addRow, host_mm d hd]
  rfl

/-- A product followed by the activation, as the host writes it. -/
theorem host_actmm {N K H : ℕ} (d : DotDims ⟨2, ![N, K]⟩ ⟨2, ![K, H]⟩ ⟨2, ![N, H]⟩) (hd : d = DotDims.plain N K H)
    (h0 : (⟨0, ![]⟩ : Shape).BroadcastsInDim ⟨2, ![N, H]⟩ ![])
    (a : FVec Ideal ⟨2, ![N, K]⟩ .f32) (W : FVec Ideal ⟨2, ![K, H]⟩ .f32) :
    mulf (Host.dotGeneral d none a W)
      (Host.divf (broadcastInDim (⟨2, ![N, H]⟩ : Shape) ![] h0 (constant (⟨0, ![]⟩ : Shape) .f32 0x3F800000#32))
        (addf (broadcastInDim (⟨2, ![N, H]⟩ : Shape) ![] h0 (constant (⟨0, ![]⟩ : Shape) .f32 0x3F800000#32))
          (Host.exp (Host.negf (Host.dotGeneral d none a W)))))
      = act (mm a W) := by
  rw [host_act, host_mm d hd]

/-! ## The program's values, stage by stage -/

variable (x0 : (⟨S200000x128, .f32⟩ : BufTy).Contents (Elt Ideal))
  (x1 : (⟨S200000x6, .f32⟩ : BufTy).Contents (Elt Ideal))
  (x2 : (⟨S1600000x42, .f32⟩ : BufTy).Contents (Elt Ideal))
  (x3 : (⟨S128x128, .f32⟩ : BufTy).Contents (Elt Ideal))
  (x4 : (⟨S128, .f32⟩ : BufTy).Contents (Elt Ideal))
  (x5 : (⟨S6x8, .f32⟩ : BufTy).Contents (Elt Ideal))
  (x6 : (⟨S8x128, .f32⟩ : BufTy).Contents (Elt Ideal))
  (x7 : (⟨S128x64, .f32⟩ : BufTy).Contents (Elt Ideal))
  (x8 : (⟨S42x8, .f32⟩ : BufTy).Contents (Elt Ideal))
  (x9 : (⟨S8x64, .f32⟩ : BufTy).Contents (Elt Ideal))
  (x10 : (⟨S64x128, .f32⟩ : BufTy).Contents (Elt Ideal))
  (x11 : (⟨S128x128, .f32⟩ : BufTy).Contents (Elt Ideal))
  (x12 : (⟨S128, .f32⟩ : BufTy).Contents (Elt Ideal))
  (x13 : (⟨S128x128, .f32⟩ : BufTy).Contents (Elt Ideal))
  (x14 : (⟨S128, .f32⟩ : BufTy).Contents (Elt Ideal))
  (x15 : (⟨S128x128, .f32⟩ : BufTy).Contents (Elt Ideal))
  (x16 : (⟨S128, .f32⟩ : BufTy).Contents (Elt Ideal))
  (x17 : (⟨S128x128, .f32⟩ : BufTy).Contents (Elt Ideal))
  (x18 : (⟨S128, .f32⟩ : BufTy).Contents (Elt Ideal))
  (x19 : (⟨S128x128, .f32⟩ : BufTy).Contents (Elt Ideal))
  (x20 : (⟨S128, .f32⟩ : BufTy).Contents (Elt Ideal))
  (x21 : (⟨S128x128, .f32⟩ : BufTy).Contents (Elt Ideal))
  (x22 : (⟨S128, .f32⟩ : BufTy).Contents (Elt Ideal))
  (x23 : (⟨S128x128, .f32⟩ : BufTy).Contents (Elt Ideal))
  (x24 : (⟨S128, .f32⟩ : BufTy).Contents (Elt Ideal))
  (x25 : (⟨S128x128, .f32⟩ : BufTy).Contents (Elt Ideal))
  (x26 : (⟨S128, .f32⟩ : BufTy).Contents (Elt Ideal))
  (x27 : (⟨S1600000, .i32⟩ : BufTy).Contents (Elt Ideal))
  (x28 : (⟨S1600000, .i32⟩ : BufTy).Contents (Elt Ideal))

/-- The dense layer of the edge embedding on the triplet path: silu (m · Wkj + bkj). -/
theorem v4_eq : Read.val_main_v4 (F := Ideal) x0 x3 x4 = dense x0 x3 (Cert.Mlp.vec x4) := by
  unfold Read.val_main_v4 Read.val_main_call0_v5 Read.val_main_call0_v4 Read.val_main_call0_cst_0 Read.val_main_call0_v3
    Read.val_main_call0_v2 Read.val_main_call0_cst Read.val_main_call0_v1 Read.val_main_call0_v0 Read.val_main_v3
    Read.val_main_v2 Read.val_main_v1 Read.val_main_v0
  exact host_dense _ d_128_128 _ _ _ x0 x3 x4

/-- The radial basis through its two projections, bracketed as the program computes it. -/
theorem v6_eq : Read.val_main_v6 (F := Ideal) x1 x5 x6 = mm (mm x1 x5) x6 := by
  unfold Read.val_main_v6 Read.val_main_v5
  rw [host_mm _ d_8_128, host_mm _ d_6_8]

/-- The down-projected, radially modulated message, with the radial projections bracketed as the program has them. -/
theorem v9_eq : Read.val_main_v9 (F := Ideal) x0 x1 x3 x4 x5 x6 x7
    = act (mm (hmul (dense x0 x3 (Cert.Mlp.vec x4)) (mm (mm x1 x5) x6)) x7) := by
  unfold Read.val_main_v9 Read.val_main_call1_v5 Read.val_main_call1_v4 Read.val_main_call1_cst_0 Read.val_main_call1_v3
    Read.val_main_call1_v2 Read.val_main_call1_cst Read.val_main_call1_v1 Read.val_main_call1_v0 Read.val_main_v8
    Read.val_main_v7
  rw [v4_eq, v6_eq, mulf_hmul]
  exact host_actmm _ d_128_64 _ _ x7

/-- With real entries the two radial projections may be multiplied first. -/
theorem v9_spec (h1 : IsReal x1) (h5 : IsReal x5) (h6 : IsReal x6) :
    Read.val_main_v9 (F := Ideal) x0 x1 x3 x4 x5 x6 x7 = Cert.Spec.mang x0 x1 x3 (Cert.Mlp.vec x4) (mm x5 x6) x7 := by
  rw [v9_eq, mm_assoc x1 x5 x6 h1 h5 h6]
  rfl

/-- The spherical basis through its two projections. -/
theorem v18_eq : Read.val_main_v18 (F := Ideal) x2 x8 x9 = mm (mm x2 x8) x9 := by
  unfold Read.val_main_v18 Read.val_main_v17
  rw [host_mm _ d_8_64, host_mm _ d_42_8]

theorem v18_spec (h2 : IsReal x2) (h8 : IsReal x8) (h9 : IsReal x9) :
    Read.val_main_v18 (F := Ideal) x2 x8 x9 = mm x2 (mm x8 x9) := by
  rw [v18_eq, mm_assoc x2 x8 x9 h2 h8 h9]

/-- The gather, the modulation by the spherical weights and the scatter-add are the aggregation of the two arrays. -/
theorem v22_eq : Read.val_main_v22 (F := Ideal) x0 x1 x2 x3 x4 x5 x6 x7 x8 x9 x27 x28
    = agg (Read.val_main_v9 (F := Ideal) x0 x1 x3 x4 x5 x6 x7) (Read.val_main_v18 (F := Ideal) x2 x8 x9) x27 x28 := by
  unfold Read.val_main_v22 Read.val_main_v21 Read.val_main_v20 Read.val_main_cst Read.val_main_v19 Read.val_main_v16
    Read.val_main_v15 Read.val_main_v14 Read.val_main_v13 Read.val_main_v12 Read.val_main_c_0 Read.val_main_v11
    Read.val_main_v10 Read.val_main_c agg
  rfl

/-- The aggregated messages projected up and activated. -/
theorem v24_eq : Read.val_main_v24 (F := Ideal) x0 x1 x2 x3 x4 x5 x6 x7 x8 x9 x10 x27 x28
    = act (mm (Read.val_main_v22 (F := Ideal) x0 x1 x2 x3 x4 x5 x6 x7 x8 x9 x27 x28) x10) := by
  unfold Read.val_main_v24 Read.val_main_call2_v5 Read.val_main_call2_v4 Read.val_main_call2_cst_0 Read.val_main_call2_v3
    Read.val_main_call2_v2 Read.val_main_call2_cst Read.val_main_call2_v1 Read.val_main_call2_v0 Read.val_main_v23
  exact host_actmm _ d_64_128 _ _ x10

/-- The dense layer of the edge embedding on the direct path. -/
theorem v29_eq : Read.val_main_v29 (F := Ideal) x0 x11 x12 = dense x0 x11 (Cert.Mlp.vec x12) := by
  unfold Read.val_main_v29 Read.val_main_call3_v5 Read.val_main_call3_v4 Read.val_main_call3_cst_0 Read.val_main_call3_v3
    Read.val_main_call3_v2 Read.val_main_call3_cst Read.val_main_call3_v1 Read.val_main_call3_v0 Read.val_main_v28
    Read.val_main_v27 Read.val_main_v26 Read.val_main_v25
  exact host_dense _ d_128_128 _ _ _ x0 x11 x12

/-- The two paths combined. -/
theorem v30_eq : Read.val_main_v30 (F := Ideal) x0 x1 x2 x3 x4 x5 x6 x7 x8 x9 x10 x11 x12 x27 x28
    = hadd (dense x0 x11 (Cert.Mlp.vec x12))
        (act (mm (Read.val_main_v22 (F := Ideal) x0 x1 x2 x3 x4 x5 x6 x7 x8 x9 x27 x28) x10)) := by
  unfold Read.val_main_v30
  rw [v29_eq, v24_eq, addf_hadd]

/-- The first residual layer: its two dense layers, then the sum with its input. -/
theorem v35_eq : Read.val_main_v35 (F := Ideal) x0 x1 x2 x3 x4 x5 x6 x7 x8 x9 x10 x11 x12 x13 x14 x27 x28
    = dense (Read.val_main_v30 (F := Ideal) x0 x1 x2 x3 x4 x5 x6 x7 x8 x9 x10 x11 x12 x27 x28) x13 (Cert.Mlp.vec x14) := by
  unfold Read.val_main_v35 Read.val_main_call4_v5 Read.val_main_call4_v4 Read.val_main_call4_cst_0 Read.val_main_call4_v3
    Read.val_main_call4_v2 Read.val_main_call4_cst Read.val_main_call4_v1 Read.val_main_call4_v0 Read.val_main_v34
    Read.val_main_v33 Read.val_main_v32 Read.val_main_v31
  exact host_dense _ d_128_128 _ _ _ _ x13 x14

theorem v40_eq : Read.val_main_v40 (F := Ideal) x0 x1 x2 x3 x4 x5 x6 x7 x8 x9 x10 x11 x12 x13 x14 x15 x16 x27 x28
    = dense (Read.val_main_v35 (F := Ideal) x0 x1 x2 x3 x4 x5 x6 x7 x8 x9 x10 x11 x12 x13 x14 x27 x28) x15 (Cert.Mlp.vec x16) := by
  unfold Read.val_main_v40 Read.val_main_call5_v5 Read.val_main_call5_v4 Read.val_main_call5_cst_0 Read.val_main_call5_v3
    Read.val_main_call5_v2 Read.val_main_call5_cst Read.val_main_call5_v1 Read.val_main_call5_v0 Read.val_main_v39
    Read.val_main_v38 Read.val_main_v37 Read.val_main_v36
  exact host_dense _ d_128_128 _ _ _ _ x15 x16

theorem v41_eq : Read.val_main_v41 (F := Ideal) x0 x1 x2 x3 x4 x5 x6 x7 x8 x9 x10 x11 x12 x13 x14 x15 x16 x27 x28
    = res (Read.val_main_v30 (F := Ideal) x0 x1 x2 x3 x4 x5 x6 x7 x8 x9 x10 x11 x12 x27 x28)
        x13 (Cert.Mlp.vec x14) x15 (Cert.Mlp.vec x16) := by
  unfold Read.val_main_v41
  rw [v40_eq, v35_eq, addf_hadd]
  rfl

/-- The dense layer after the first residual layer, and the skip connection back to the embedding. -/
theorem v46_eq : Read.val_main_v46 (F := Ideal) x0 x1 x2 x3 x4 x5 x6 x7 x8 x9 x10 x11 x12 x13 x14 x15 x16 x17 x18 x27 x28
    = dense (Read.val_main_v41 (F := Ideal) x0 x1 x2 x3 x4 x5 x6 x7 x8 x9 x10 x11 x12 x13 x14 x15 x16 x27 x28)
        x17 (Cert.Mlp.vec x18) := by
  unfold Read.val_main_v46 Read.val_main_call6_v5 Read.val_main_call6_v4 Read.val_main_call6_cst_0 Read.val_main_call6_v3
    Read.val_main_call6_v2 Read.val_main_call6_cst Read.val_main_call6_v1 Read.val_main_call6_v0 Read.val_main_v45
    Read.val_main_v44 Read.val_main_v43 Read.val_main_v42
  exact host_dense _ d_128_128 _ _ _ _ x17 x18

theorem v47_eq : Read.val_main_v47 (F := Ideal) x0 x1 x2 x3 x4 x5 x6 x7 x8 x9 x10 x11 x12 x13 x14 x15 x16 x17 x18 x27 x28
    = hadd (dense (Read.val_main_v41 (F := Ideal) x0 x1 x2 x3 x4 x5 x6 x7 x8 x9 x10 x11 x12 x13 x14 x15 x16 x27 x28)
        x17 (Cert.Mlp.vec x18)) x0 := by
  unfold Read.val_main_v47
  rw [v46_eq, addf_hadd]

/-- The second residual layer. -/
theorem v52_eq : Read.val_main_v52 (F := Ideal) x0 x1 x2 x3 x4 x5 x6 x7 x8 x9 x10 x11 x12 x13 x14 x15 x16 x17 x18 x19 x20 x27 x28
    = dense (Read.val_main_v47 (F := Ideal) x0 x1 x2 x3 x4 x5 x6 x7 x8 x9 x10 x11 x12 x13 x14 x15 x16 x17 x18 x27 x28)
        x19 (Cert.Mlp.vec x20) := by
  unfold Read.val_main_v52 Read.val_main_call7_v5 Read.val_main_call7_v4 Read.val_main_call7_cst_0 Read.val_main_call7_v3
    Read.val_main_call7_v2 Read.val_main_call7_cst Read.val_main_call7_v1 Read.val_main_call7_v0 Read.val_main_v51
    Read.val_main_v50 Read.val_main_v49 Read.val_main_v48
  exact host_dense _ d_128_128 _ _ _ _ x19 x20

theorem v57_eq : Read.val_main_v57 (F := Ideal) x0 x1 x2 x3 x4 x5 x6 x7 x8 x9 x10 x11 x12 x13 x14 x15 x16 x17 x18 x19 x20 x21 x22 x27 x28
    = dense (Read.val_main_v52 (F := Ideal) x0 x1 x2 x3 x4 x5 x6 x7 x8 x9 x10 x11 x12 x13 x14 x15 x16 x17 x18 x19 x20 x27 x28)
        x21 (Cert.Mlp.vec x22) := by
  unfold Read.val_main_v57 Read.val_main_call8_v5 Read.val_main_call8_v4 Read.val_main_call8_cst_0 Read.val_main_call8_v3
    Read.val_main_call8_v2 Read.val_main_call8_cst Read.val_main_call8_v1 Read.val_main_call8_v0 Read.val_main_v56
    Read.val_main_v55 Read.val_main_v54 Read.val_main_v53
  exact host_dense _ d_128_128 _ _ _ _ x21 x22

theorem v58_eq : Read.val_main_v58 (F := Ideal) x0 x1 x2 x3 x4 x5 x6 x7 x8 x9 x10 x11 x12 x13 x14 x15 x16 x17 x18 x19 x20 x21 x22 x27 x28
    = res (Read.val_main_v47 (F := Ideal) x0 x1 x2 x3 x4 x5 x6 x7 x8 x9 x10 x11 x12 x13 x14 x15 x16 x17 x18 x27 x28)
        x19 (Cert.Mlp.vec x20) x21 (Cert.Mlp.vec x22) := by
  unfold Read.val_main_v58
  rw [v57_eq, v52_eq, addf_hadd]
  rfl

/-- The third residual layer, whose sum is the program's result. -/
theorem v63_eq : Read.val_main_v63 (F := Ideal) x0 x1 x2 x3 x4 x5 x6 x7 x8 x9 x10 x11 x12 x13 x14 x15 x16 x17 x18 x19 x20 x21 x22 x23 x24 x27 x28
    = dense (Read.val_main_v58 (F := Ideal) x0 x1 x2 x3 x4 x5 x6 x7 x8 x9 x10 x11 x12 x13 x14 x15 x16 x17 x18 x19 x20 x21 x22 x27 x28)
        x23 (Cert.Mlp.vec x24) := by
  unfold Read.val_main_v63 Read.val_main_call9_v5 Read.val_main_call9_v4 Read.val_main_call9_cst_0 Read.val_main_call9_v3
    Read.val_main_call9_v2 Read.val_main_call9_cst Read.val_main_call9_v1 Read.val_main_call9_v0 Read.val_main_v62
    Read.val_main_v61 Read.val_main_v60 Read.val_main_v59
  exact host_dense _ d_128_128 _ _ _ _ x23 x24

theorem v68_eq : Read.val_main_v68 (F := Ideal) x0 x1 x2 x3 x4 x5 x6 x7 x8 x9 x10 x11 x12 x13 x14 x15 x16 x17 x18 x19 x20 x21 x22 x23 x24 x25 x26 x27 x28
    = dense (Read.val_main_v63 (F := Ideal) x0 x1 x2 x3 x4 x5 x6 x7 x8 x9 x10 x11 x12 x13 x14 x15 x16 x17 x18 x19 x20 x21 x22 x23 x24 x27 x28)
        x25 (Cert.Mlp.vec x26) := by
  unfold Read.val_main_v68 Read.val_main_call10_v5 Read.val_main_call10_v4 Read.val_main_call10_cst_0 Read.val_main_call10_v3
    Read.val_main_call10_v2 Read.val_main_call10_cst Read.val_main_call10_v1 Read.val_main_call10_v0 Read.val_main_v67
    Read.val_main_v66 Read.val_main_v65 Read.val_main_v64
  exact host_dense _ d_128_128 _ _ _ _ x25 x26

theorem v69_eq : Read.val_main_v69 (F := Ideal) x0 x1 x2 x3 x4 x5 x6 x7 x8 x9 x10 x11 x12 x13 x14 x15 x16 x17 x18 x19 x20 x21 x22 x23 x24 x25 x26 x27 x28
    = res (Read.val_main_v58 (F := Ideal) x0 x1 x2 x3 x4 x5 x6 x7 x8 x9 x10 x11 x12 x13 x14 x15 x16 x17 x18 x19 x20 x21 x22 x27 x28)
        x23 (Cert.Mlp.vec x24) x25 (Cert.Mlp.vec x26) := by
  unfold Read.val_main_v69
  rw [v68_eq, v63_eq, addf_hadd]
  rfl

/-- The reference program's result as one closed function of its arguments: the block's final stage applied to the
    edge embedding and to the aggregation of the down-projected messages with the spherical weights.  The two pairs of
    basis projections are multiplied first, which needs their entries (and the bases') real. -/
theorem result_eq (h1 : IsReal x1) (h5 : IsReal x5) (h6 : IsReal x6) (h2 : IsReal x2) (h8 : IsReal x8) (h9 : IsReal x9) :
    Read.val_main_v69 (F := Ideal) x0 x1 x2 x3 x4 x5 x6 x7 x8 x9 x10 x11 x12 x13 x14 x15 x16 x17 x18 x19 x20 x21 x22 x23 x24 x25 x26 x27 x28
      = Cert.Spec.final x0 (agg (Cert.Spec.mang x0 x1 x3 (Cert.Mlp.vec x4) (mm x5 x6) x7) (mm x2 (mm x8 x9)) x27 x28)
          x10 x11 (Cert.Mlp.vec x12) x13 (Cert.Mlp.vec x14) x15 (Cert.Mlp.vec x16) x17 (Cert.Mlp.vec x18)
          x19 (Cert.Mlp.vec x20) x21 (Cert.Mlp.vec x22) x23 (Cert.Mlp.vec x24) x25 (Cert.Mlp.vec x26) := by
  rw [v69_eq, v58_eq, v47_eq, v41_eq, v30_eq, v22_eq, v9_spec x0 x1 x3 x4 x5 x6 x7 h1 h5 h6, v18_spec x2 x8 x9 h2 h8 h9]
  rfl

end Cert.ReferenceIdeal.RefValue

end
-- ==== Proof.PreFacts.lean ====
/-
  What the precondition says of the inputs.  The precondition is a Boolean program: for each of the 27 real-valued
  input arrays  x  the conjunction over all entries of  |x| < +∞ , and for the last integer array  e  the conjunctions
  over all entries of  e ≥ -200000  and  e < 200000 , all and-ed into one bit.  When that bit is 1, every conjunct is 1:
  an  and  of two bits is 1 only when both are, and an and-reduction from 1 that is 1 met only 1s.  On the extended
  reals  |x| = max x (-x) , which is  ⊤  at both infinities, so  |x| < ⊤  says  x  is a real number; and the signed
  comparisons of 32-bit words are the comparisons of the integers they denote.
-/
import Idealize.ShloMosaic.Lib.ReduceAll
import Idealize.ShloMosaic.PureOps.Ideal
import proofs.«424410_j63531156242867_2_alg».proof.Pre_finite_inputs
import proofs.«424410_j63531156242867_2_alg».proof.Proof.LibDense

noncomputable section

open Idealize.ShloMosaic Cert.Pre_finite_inputs

namespace Cert.PreFacts

/-- The empty product of coordinates has one point. -/
instance : Subsingleton S_.Idx := ⟨fun a b => funext fun d => d.elim0⟩

/-- On the extended reals,  |x| < +∞  (the word `0x7F800000` is +∞) says that  x  is a real number. -/
theorem real_of_abs_lt_inf (x : Ideal .f32)
    (h : FloatOps.cmpf (F := Ideal) .olt (FloatOps.hostAbsf x) (FloatOps.ofBits .f32 0x7F800000#32) = 1#1) :
    ∃ r : ℝ, x = (r : EReal) := by
  have hinf : Ideal.ofBits .f32 0x7F800000#32 = (⊤ : EReal) := by simp [Ideal.ofBits, Ideal.ieee]
  have hlt : max x (-x) < (⊤ : EReal) := by
    have h' : Ideal.cmp .olt (max x (-x)) (Ideal.ofBits .f32 0x7F800000#32) = 1#1 := h
    rw [hinf] at h'
    by_contra hn
    simp [Ideal.cmp, hn] at h'
  induction x using EReal.rec with
  | bot => simp at hlt
  | top => simp at hlt
  | coe r => exact ⟨r, rfl⟩

/-- The conjunction over all entries of  |a| < +∞  being 1 says every entry of `a` is a real number. -/
theorem isReal_of_all {s : Shape} {axes : List (Fin s.rank)} (a : FVec Ideal s .f32)
    (hb : S_.BroadcastsInDim s (![] : Fin 0 → Fin s.rank)) (hr : s.ReducesTo axes S_) (h0 : 0 < S_.numel) (j : S_.Idx)
    (h : Host.reduce IntOp.andi (cmpf .olt (Host.absf a) (broadcastInDim s ![] hb (constant S_ .f32 0x7F800000#32)))
      (constantI S_ 1 1#1) hr h0 j = 1#1) : Cert.Dense.IsReal a := fun i =>
  real_of_abs_lt_inf (a i) (Host.reduce_andi_all _ _ hr h0 j h i)

/-- The entries of the six real arrays the proof uses are real numbers, and every entry of the last integer array,
    read signed, lies in  [-200000, 200000) . -/
theorem of_pre [hP : Cert.Pre_finite_inputs.Facts]
    (a0 : FVec Ideal S200000x128 .f32) (a1 : FVec Ideal S200000x6 .f32) (a2 : FVec Ideal S1600000x42 .f32) (a3 : FVec Ideal S128x128 .f32) (a4 : FVec Ideal S128 .f32) (a5 : FVec Ideal S6x8 .f32) (a6 : FVec Ideal S8x128 .f32) (a7 : FVec Ideal S128x64 .f32) (a8 : FVec Ideal S42x8 .f32) (a9 : FVec Ideal S8x64 .f32) (a10 : FVec Ideal S64x128 .f32) (a11 : FVec Ideal S128x128 .f32) (a12 : FVec Ideal S128 .f32) (a13 : FVec Ideal S128x128 .f32) (a14 : FVec Ideal S128 .f32) (a15 : FVec Ideal S128x128 .f32) (a16 : FVec Ideal S128 .f32) (a17 : FVec Ideal S128x128 .f32) (a18 : FVec Ideal S128 .f32) (a19 : FVec Ideal S128x128 .f32) (a20 : FVec Ideal S128 .f32) (a21 : FVec Ideal S128x128 .f32) (a22 : FVec Ideal S128 .f32) (a23 : FVec Ideal S128x128 .f32) (a24 : FVec Ideal S128 .f32) (a25 : FVec Ideal S128x128 .f32) (a26 : FVec Ideal S128 .f32) (a27 a28 : IVec S1600000 32)
    (h : Cert.Pre_finite_inputs.fn (F := Ideal) a0 a1 a2 a3 a4 a5 a6 a7 a8 a9 a10 a11 a12 a13 a14 a15 a16 a17 a18 a19 a20 a21 a22 a23 a24 a25 a26 a27 a28 = fun _ => 1#1) :
    Cert.Dense.IsReal a1 ∧ Cert.Dense.IsReal a2 ∧ Cert.Dense.IsReal a5 ∧ Cert.Dense.IsReal a6 ∧ Cert.Dense.IsReal a8 ∧ Cert.Dense.IsReal a9
      ∧ ∀ t : S1600000.Idx, -(200000 : Int) ≤ (a28 t).toInt ∧ (a28 t).toInt < 200000 := by
  have h0 := congrFun h (fun d => d.elim0 : S_.Idx)
  dsimp only [fn, fn_part1, fn_part2, fn_part3, fn_part4, fn_part5, fn_part6, fn_part7, fn_part8, andi] at h0
  simp only [IntOp.andi_eq_one, and_assoc] at h0
  obtain ⟨-, h1, h2, -, -, h5, h6, -, h8, h9, -, -, -, -, -, -, -, -, -, -, -, -, -, -, -, -, -, hge, hlt⟩ := h0
  refine ⟨isReal_of_all a1 _ _ _ _ h1, isReal_of_all a2 _ _ _ _ h2, isReal_of_all a5 _ _ _ _ h5,
    isReal_of_all a6 _ _ _ _ h6, isReal_of_all a8 _ _ _ _ h8, isReal_of_all a9 _ _ _ _ h9, fun t => ⟨?_, ?_⟩⟩
  · have := IntOp.cmpi_sge.1 (Host.reduce_andi_all _ _ _ _ _ hge t)
    exact this
  · have := IntOp.cmpi_slt.1 (Host.reduce_andi_all _ _ _ _ _ hlt t)
    exact this

end Cert.PreFacts
-- ==== Proof.lean ====
/-
  The certificate of a directional message-passing block (DimeNet++ style) against its plain reference.

  Both programs compute, per edge e and per triplet t of a graph,
      mang e  = silu ((silu (m e · Wkj + bkj) ∘ (rbf e · Wrbf)) · Wdown)          (the down-projected edge message)
      agg     = the scatter-add, to the triplets' target edges, of  mang (source edge of t) ∘ (sbf t · Wsbf)
      out e   = the combine of m e and agg e followed by a residual stack of nine dense layers.
  The kernel program runs three launches (mang in blocks of 5000 rows, sbf · Wsbf in blocks of 6400 rows, the
  stack in blocks of 4000 rows) around the host's gather and scatter-add, with the two-step projections folded into
  one matrix each,  Wrbf = Wrbf1 · Wrbf2  and  Wsbf = Wsbf1 · Wsbf2 ; the reference is one host program that
  multiplies in two steps,  (rbf · Wrbf1) · Wrbf2 . On the extended reals the two bracketings agree because the
  precondition makes those matrices' entries real numbers (distributivity fails at the infinities): that is the one
  place finiteness is used. The kernel gathers with a fill mask (an out-of-range index reads a fill word), the
  reference clamps; the added evident-domain conjunct  -200000 ≤ expand_to_kj < 200000  (the range in which the
  reference's own indexing is in range) makes the mask all ones, and then both gather the same rows. Every other
  stage is the same operation on both sides: a matrix-unit product into a zero accumulator against a `dot_general`,
  `logistic` against  1 / (1 + exp (-x)) , a change of float format against nothing.

  Kernel0 / Kernel1 / Kernel2: each launch's output array as one function of the arrays it finds (a row's value
  depends on that row only, and the blocks tile the array). KernelHost: those arrays read back through the host
  operations to the arguments. KernelValue: the result buffer in the arguments. RefValue: the reference's result in
  the arguments. PreFacts: what the precondition gives. Here: the five claims.
-/
import proofs.«424410_j63531156242867_2_alg».proof.Defs
import proofs.«424410_j63531156242867_2_alg».proof.Proof.Gen.Kernel
import proofs.«424410_j63531156242867_2_alg».proof.Proof.Gen.Kernel.Skeleton
import proofs.«424410_j63531156242867_2_alg».proof.Proof.Gen.Kernel.Launch
import proofs.«424410_j63531156242867_2_alg».proof.Proof.Gen.Kernel.Points
import proofs.«424410_j63531156242867_2_alg».proof.Proof.Gen.Kernel.Frame
import proofs.«424410_j63531156242867_2_alg».proof.Proof.Gen.KernelIdeal
import proofs.«424410_j63531156242867_2_alg».proof.Proof.Gen.KernelIdeal.Skeleton
import proofs.«424410_j63531156242867_2_alg».proof.Proof.Gen.KernelIdeal.Launch
import proofs.«424410_j63531156242867_2_alg».proof.Proof.Gen.KernelIdeal.Points
import proofs.«424410_j63531156242867_2_alg».proof.Proof.Gen.KernelIdeal.Frame
import proofs.«424410_j63531156242867_2_alg».proof.Proof.Gen.ReferenceIdeal
import proofs.«424410_j63531156242867_2_alg».proof.Proof.Gen.Pre_finite_inputs
import proofs.«424410_j63531156242867_2_alg».proof.Proof.KernelValue
import proofs.«424410_j63531156242867_2_alg».proof.Proof.RefRun
import proofs.«424410_j63531156242867_2_alg».proof.Proof.RefValue
import proofs.«424410_j63531156242867_2_alg».proof.Proof.PreFacts
import Idealize.ShloMosaic.Adequacy
import Idealize.ShloMosaic.Init

set_option maxRecDepth 16384

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- The two programs apply the same host gather and scatter-add. -/
theorem agg_eq : Cert.KernelIdeal.KValue.agg = Cert.ReferenceIdeal.RefValue.agg := rfl

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

set_option maxHeartbeats 4000000 in
/-- Run from memories that agree on the arguments, both programs end with the result buffer at the same function of
    the arguments: the kernel's by the three launches' arrays read through the host operations, the reference's by
    its run; the two bracketings of the folded projections agree on real entries, and under the index range the
    gather's fill mask is all ones. -/
theorem algebraic : Cert.algebraic_KernelIdeal_ReferenceIdeal := by
  intro m ρ m' ρ' hpre hagree
  have hf := fun c => Cert.PreFacts.of_pre _ _ _ _ _ _ _ _ _ _ _ _ _ _ _ _ _ _ _ _ _ _ _ _ _ _ _ _ _ (hpre c)
  refine ⟨fun c => Cert.Spec.final (m ((c.tc : Thread Cert.KernelIdeal.nD Cert.KernelIdeal.τ).loc Cert.KernelIdeal.main_arg0))
      (Cert.KernelIdeal.KValue.agg (Cert.Spec.mang (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (Cert.Mlp.vec (m ((c.tc : Thread Cert.KernelIdeal.nD Cert.KernelIdeal.τ).loc Cert.KernelIdeal.main_arg4)))
          (Cert.Dense.mm (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)))
        (Cert.Dense.mm (m ((c.tc : Thread Cert.KernelIdeal.nD Cert.KernelIdeal.τ).loc Cert.KernelIdeal.main_arg2)) (Cert.Dense.mm (m ((c.tc : Thread Cert.KernelIdeal.nD Cert.KernelIdeal.τ).loc Cert.KernelIdeal.main_arg8)) (m ((c.tc : Thread Cert.KernelIdeal.nD Cert.KernelIdeal.τ).loc Cert.KernelIdeal.main_arg9)))) (m ((c.tc : Thread Cert.KernelIdeal.nD Cert.KernelIdeal.τ).loc Cert.KernelIdeal.main_arg27)) (m ((c.tc : Thread Cert.KernelIdeal.nD Cert.KernelIdeal.τ).loc Cert.KernelIdeal.main_arg28)))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (Cert.Mlp.vec (m ((c.tc : Thread Cert.KernelIdeal.nD Cert.KernelIdeal.τ).loc Cert.KernelIdeal.main_arg12)))
      (m ((c.tc : Thread Cert.KernelIdeal.nD Cert.KernelIdeal.τ).loc Cert.KernelIdeal.main_arg13)) (Cert.Mlp.vec (m ((c.tc : Thread Cert.KernelIdeal.nD Cert.KernelIdeal.τ).loc Cert.KernelIdeal.main_arg14))) (m ((c.tc : Thread Cert.KernelIdeal.nD Cert.KernelIdeal.τ).loc Cert.KernelIdeal.main_arg15)) (Cert.Mlp.vec (m ((c.tc : Thread Cert.KernelIdeal.nD Cert.KernelIdeal.τ).loc Cert.KernelIdeal.main_arg16)))
      (m ((c.tc : Thread Cert.KernelIdeal.nD Cert.KernelIdeal.τ).loc Cert.KernelIdeal.main_arg17)) (Cert.Mlp.vec (m ((c.tc : Thread Cert.KernelIdeal.nD Cert.KernelIdeal.τ).loc Cert.KernelIdeal.main_arg18)))
      (m ((c.tc : Thread Cert.KernelIdeal.nD Cert.KernelIdeal.τ).loc Cert.KernelIdeal.main_arg19)) (Cert.Mlp.vec (m ((c.tc : Thread Cert.KernelIdeal.nD Cert.KernelIdeal.τ).loc Cert.KernelIdeal.main_arg20))) (m ((c.tc : Thread Cert.KernelIdeal.nD Cert.KernelIdeal.τ).loc Cert.KernelIdeal.main_arg21)) (Cert.Mlp.vec (m ((c.tc : Thread Cert.KernelIdeal.nD Cert.KernelIdeal.τ).loc Cert.KernelIdeal.main_arg22)))
      (m ((c.tc : Thread Cert.KernelIdeal.nD Cert.KernelIdeal.τ).loc Cert.KernelIdeal.main_arg23)) (Cert.Mlp.vec (m ((c.tc : Thread Cert.KernelIdeal.nD Cert.KernelIdeal.τ).loc Cert.KernelIdeal.main_arg24))) (m ((c.tc : Thread Cert.KernelIdeal.nD Cert.KernelIdeal.τ).loc Cert.KernelIdeal.main_arg25)) (Cert.Mlp.vec (m ((c.tc : Thread Cert.KernelIdeal.nD Cert.KernelIdeal.τ).loc Cert.KernelIdeal.main_arg26))), ?_, ?_⟩
  · exact (θ_run Cert.KernelIdeal.defs _ _).mono
      (fun r h c => ⟨(h c).1.trans (Cert.KernelIdeal.KValue.result m ρ c (hf c).2.2.2.2.2.2), (h c).2⟩)
      (Cert.KernelIdeal.GenRun.run m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21, e22, e23, e24, e25, e26, e27, e28⟩ := hagree c
    obtain ⟨h1, h2, h5, h6, h8, h9, -⟩ := hf c
    rw [e0, e1, e2, e3, e4, e5, e6, e7, e8, e9, e10, e11, e12, e13, e14, e15, e16, e17, e18, e19, e20, e21, e22, e23, e24, e25, e26, e27, e28,
      Cert.ReferenceIdeal.RefValue.result_eq _ _ _ _ _ _ _ _ _ _ _ _ _ _ _ _ _ _ _ _ _ _ _ _ _ _ _ _ _ h1 h5 h6 h2 h8 h9, agg_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
